-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S_ : Shape := ⟨0, ![]⟩

class Facts : Prop where
  bcast_S_S8x256x56x56 : S_.BroadcastsInDim S8x256x56x56 (![] : Fin 0 → Fin S8x256x56x56.rank)
  reducesTo_S8x256x56x56_S_d0_1_2_3 : S8x256x56x56.ReducesTo [0, 1, 2, 3] S_
  h_S_ : 0 < S_.numel
  bcast_S_S2304x256 : S_.BroadcastsInDim S2304x256 (![] : Fin 0 → Fin S2304x256.rank)
  reducesTo_S2304x256_S_d0_1 : S2304x256.ReducesTo [0, 1] S_
  bcast_S_S256 : S_.BroadcastsInDim S256 (![] : Fin 0 → Fin S256.rank)
  reducesTo_S256_S_d0 : S256.ReducesTo [0] S_
  bcast_S_S256x2304 : S_.BroadcastsInDim S256x2304 (![] : Fin 0 → Fin S256x2304.rank)
  reducesTo_S256x2304_S_d0_1 : S256x2304.ReducesTo [0, 1] S_
  bcast_S_S2304 : S_.BroadcastsInDim S2304 (![] : Fin 0 → Fin S2304.rank)
  reducesTo_S2304_S_d0 : S2304.ReducesTo [0] S_

variable [Facts]

def fn_part1 {F : FTy → Type} [FloatOps F] (main_arg4 : FVec F S2304 .f32) (main_arg5 : FVec F S2304x256 .f32) (main_arg6 : FVec F S256 .f32) (main_v13 : IVec S_ 1) (main_v16 : IVec S256x2304 1) : IVec S_ 1 :=
  let main_c_5 : IVec S_ 1 := constantI S_ 1 1#1
  let main_v17 : IVec S_ 1 := (fun x v => Host.reduce IntOp.andi x v reducesTo_S256x2304_S_d0_1 h_S_) main_v16 main_c_5
  let main_v18 : IVec S_ 1 := andi main_v13 main_v17
  let main_v19 : FVec F S2304 .f32 := Host.absf main_arg4
  let main_cst_6 : FVec F S_ .f32 := constant S_ .f32 0x7F800000#32
  let main_v20 : FVec F S2304 .f32 := broadcastInDim S2304 ![] bcast_S_S2304 main_cst_6
  let main_v21 : IVec S2304 1 := cmpf .olt main_v19 main_v20
  let main_c_7 : IVec S_ 1 := constantI S_ 1 1#1
  let main_v22 : IVec S_ 1 := (fun x v => Host.reduce IntOp.andi x v reducesTo_S2304_S_d0 h_S_) main_v21 main_c_7
  let main_v23 : IVec S_ 1 := andi main_v18 main_v22
  let main_v24 : FVec F S2304x256 .f32 := Host.absf main_arg5
  let main_cst_8 : FVec F S_ .f32 := constant S_ .f32 0x7F800000#32
  let main_v25 : FVec F S2304x256 .f32 := broadcastInDim S2304x256 ![] bcast_S_S2304x256 main_cst_8
  let main_v26 : IVec S2304x256 1 := cmpf .olt main_v24 main_v25
  let main_c_9 : IVec S_ 1 := constantI S_ 1 1#1
  let main_v27 : IVec S_ 1 := (fun x v => Host.reduce IntOp.andi x v reducesTo_S2304x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x256x56x56 .f32) (main_arg1 : FVec F S2304x256 .f32) (main_arg2 : FVec F S256 .f32) (main_arg3 : FVec F S256x2304 .f32) (main_arg4 : FVec F S2304 .f32) (main_arg5 : FVec F S2304x256 .f32) (main_arg6 : FVec F S256 .f32) : IVec S_ 1 :=
  let main_v0 : FVec F S8x256x56x56 .f32 := Host.absf main_arg0
  let main_cst : FVec F S_ .f32 := constant S_ .f32 0x7F800000#32
  let main_v1 : FVec F S8x256x56x56 .f32 := broadcastInDim S8x256x56x56 ![] bcast_S_S8x256x56x56 main_cst
  let main_v2 : IVec S8x256x56x56 1 := cmpf .olt main_v0 main_v1
  let main_c : IVec S_ 1 := constantI S_ 1 1#1
  let main_v3 : IVec S_ 1 := (fun x v => Host.reduce IntOp.andi x v reducesTo_S8x256x56x56_S_d0_1_2_3 h_S_) main_v2 main_c
  let main_v4 : FVec F S2304x256 .f32 := Host.absf main_arg1
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  let main_c_1 : IVec S_ 1 := constantI S_ 1 1#1
  let main_v7 : IVec S_ 1 := (fun x v => Host.reduce IntOp.andi x v reducesTo_S2304x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2304 .f32 := Host.absf main_arg3
  let main_cst_4 : FVec F S_ .f32 := constant S_ .f32 0x7F800000#32
  let main_v15 : FVec F S256x2304 .f32 := broadcastInDim S256x2304 ![] bcast_S_S256x2304 main_cst_4
  let main_v16 : IVec S256x2304 1 := cmpf .olt main_v14 main_v15
  fn_part1 (F := F) main_arg4 main_arg5 main_arg6 main_v13 main_v16
-- ==== Kernel.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S8x56x56x256 : Shape := ⟨4, ![8, 56, 56, 256]⟩
abbrev S_ : Shape := ⟨0, ![]⟩
abbrev S8x58x58x256 : Shape := ⟨4, ![8, 58, 58, 256]⟩
abbrev S256x9x256 : Shape := ⟨3, ![256, 9, 256]⟩
abbrev S256x256x9 : Shape := ⟨3, ![256, 256, 9]⟩
abbrev S256x9 : Shape := ⟨2, ![256, 9]⟩
abbrev S9x256 : Shape := ⟨2, ![9, 256]⟩
abbrev S1x2304 : Shape := ⟨2, ![1, 2304]⟩
abbrev S1x256 : Shape := ⟨2, ![1, 256]⟩
abbrev S1x58x58x256 : Shape := ⟨4, ![1, 58, 58, 256]⟩
abbrev S1x56x56x256 : Shape := ⟨4, ![1, 56, 56, 256]⟩
abbrev S784x256 : Shape := ⟨2, ![784, 256]⟩
abbrev S1x14x56x256 : Shape := ⟨4, ![1, 14, 56, 256]⟩
abbrev S14x56x256 : Shape := ⟨3, ![14, 56, 256]⟩
abbrev S256x1x256 : Shape := ⟨3, ![256, 1, 256]⟩
abbrev S256x256 : Shape := ⟨2, ![256, 256]⟩
abbrev S784x2304 : Shape := ⟨2, ![784, 2304]⟩
abbrev S8x3136x256 : Shape := ⟨3, ![8, 3136, 256]⟩

abbrev nBuf : Space → Nat
  | .hbm => 27
  | .vmem => 10
  | .smem => 0
  | _ => 0

abbrev bufTy : (tb : Table) → Fin (tcTables nBuf tb) → BufTy
  | .hbm, ⟨0, _⟩ => ⟨S8x256x56x56, .f32⟩
  | .hbm, ⟨1, _⟩ => ⟨S2304x256, .f32⟩
  | .hbm, ⟨2, _⟩ => ⟨S256, .f32⟩
  | .hbm, ⟨3, _⟩ => ⟨S256x2304, .f32⟩
  | .hbm, ⟨4, _⟩ => ⟨S2304, .f32⟩
  | .hbm, ⟨5, _⟩ => ⟨S2304x256, .f32⟩
  | .hbm, ⟨6, _⟩ => ⟨S256, .f32⟩
  | .hbm, ⟨7, _⟩ => ⟨S8x56x56x256, .f32⟩
  | .hbm, ⟨8, _⟩ => ⟨S_, .i32⟩
  | .hbm, ⟨9, _⟩ => ⟨S_, .f32⟩
  | .hbm, ⟨10, _⟩ => ⟨S8x58x58x256, .f32⟩
  | .hbm, ⟨11, _⟩ => ⟨S8x58x58x256, .bf16⟩
  | .hbm, ⟨12, _⟩ => ⟨S256x9x256, .f32⟩
  | .hbm, ⟨13, _⟩ => ⟨S256x9x256, .bf16⟩
  | .hbm, ⟨14, _⟩ => ⟨S256x9x256, .f32⟩
  | .hbm, ⟨15, _⟩ => ⟨S256x9x256, .bf16⟩
  | .hbm, ⟨16, _⟩ => ⟨S256x256x9, .f32⟩
  | .hbm, ⟨17, _⟩ => ⟨S256x9x256, .f32⟩
  | .hbm, ⟨18, _⟩ => ⟨S256x2304, .f32⟩
  | .hbm, ⟨19, _⟩ => ⟨S256x2304, .bf16⟩
  | .hbm, ⟨20, _⟩ => ⟨S256x9, .f32⟩
  | .hbm, ⟨21, _⟩ => ⟨S9x256, .f32⟩
  | .hbm, ⟨22, _⟩ => ⟨S1x2304, .f32⟩
  | .hbm, ⟨23, _⟩ => ⟨S1x256, .f32⟩
  | .hbm, ⟨24, _⟩ => ⟨S1x256, .f32⟩
  | .hbm, ⟨25, _⟩ => ⟨S8x56x56x256, .f32⟩
  | .hbm, ⟨26, _⟩ => ⟨S8x3136x256, .f32⟩
  | .local _ .vmem, ⟨0, _⟩ => ⟨S1x58x58x256, .bf16⟩
  | .local _ .vmem, ⟨1, _⟩ => ⟨S1x58x58x256, .bf16⟩
  | .local _ .vmem, ⟨2, _⟩ => ⟨S256x9x256, .bf16⟩
  | .local _ .vmem, ⟨3, _⟩ => ⟨S1x256, .f32⟩
  | .local _ .vmem, ⟨4, _⟩ => ⟨S256x2304, .bf16⟩
  | .local _ .vmem, ⟨5, _⟩ => ⟨S1x2304, .f32⟩
  | .local _ .vmem, ⟨6, _⟩ => ⟨S256x9x256, .bf16⟩
  | .local _ .vmem, ⟨7, _⟩ => ⟨S1x256, .f32⟩
  | .local _ .vmem, ⟨8, _⟩ => ⟨S1x56x56x256, .f32⟩
  | .local _ .vmem, ⟨9, _⟩ => ⟨S1x56x56x256, .f32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x58x58x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x9x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x9x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x56x56x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8x256x56x56_S8x56x56x256_0_2_3_1 : S8x256x56x56.Transposes [0, 2, 3, 1] S8x56x56x256
  pads_S8x56x56x256_S8x58x58x256_000_110_110_000 : S8x56x56x256.Pads (![0, 1, 1, 0] : Fin 4 → Nat) ![0, 1, 1, 0] ![0, 0, 0, 0] S8x58x58x256
  h_S_ : 0 < S_.numel
  bitsLt_bf16_f32 : FTy.bits .bf16 < FTy.bits .f32
  shapeCasts_S2304x256_S256x9x256 : S2304x256.ShapeCasts S256x9x256
  shapeCasts_S256x2304_S256x256x9 : S256x2304.ShapeCasts S256x256x9
  transposes_S256x256x9_S256x9x256_0_2_1 : S256x256x9.Transposes [0, 2, 1] S256x9x256
  shapeCasts_S256x9x256_S256x2304 : S256x9x256.ShapeCasts S256x2304
  shapeCasts_S2304_S256x9 : S2304.ShapeCasts S256x9
  transposes_S256x9_S9x256_1_0 : S256x9.Transposes [1, 0] S9x256
  shapeCasts_S9x256_S1x2304 : S9x256.ShapeCasts S1x2304
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  inb_S1x58x58x256_S1x14x56x256_0_0_0_0 : ∀ a, (![0, 0, 0, 0] : Fin 4 → Nat) a + S1x14x56x256.size a ≤ S1x58x58x256.size a
  h_S1x14x56x256 : 0 < S1x14x56x256.numel
  shapeCasts_S1x14x56x256_S14x56x256 : S1x14x56x256.ShapeCasts S14x56x256
  shapeCasts_S14x56x256_S784x256 : S14x56x256.ShapeCasts S784x256
  inb_S256x9x256_S256x1x256_0_0_0 : ∀ a, (![0, 0, 0] : Fin 3 → Nat) a + S256x1x256.size a ≤ S256x9x256.size a
  h_S256x1x256 : 0 < S256x1x256.numel
  shapeCasts_S256x1x256_S256x256 : S256x1x256.ShapeCasts S256x256
  inb_S1x58x58x256_S1x14x56x256_0_0_1_0 : ∀ a, (![0, 0, 1, 0] : Fin 4 → Nat) a + S1x14x56x256.size a ≤ S1x58x58x256.size a
  inb_S256x9x256_S256x1x256_0_1_0 : ∀ a, (![0, 1, 0] : Fin 3 → Nat) a + S256x1x256.size a ≤ S256x9x256.size a
  inb_S1x58x58x256_S1x14x56x256_0_0_2_0 : ∀ a, (![0, 0, 2, 0] : Fin 4 → Nat) a + S1x14x56x256.size a ≤ S1x58x58x256.size a
  inb_S256x9x256_S256x1x256_0_2_0 : ∀ a, (![0, 2, 0] : Fin 3 → Nat) a + S256x1x256.size a ≤ S256x9x256.size a
  inb_S1x58x58x256_S1x14x56x256_0_1_0_0 : ∀ a, (![0, 1, 0, 0] : Fin 4 → Nat) a + S1x14x56x256.size a ≤ S1x58x58x256.size a
  inb_S256x9x256_S256x1x256_0_3_0 : ∀ a, (![0, 3, 0] : Fin 3 → Nat) a + S256x1x256.size a ≤ S256x9x256.size a
  inb_S1x58x58x256_S1x14x56x256_0_1_1_0 : ∀ a, (![0, 1, 1, 0] : Fin 4 → Nat) a + S1x14x56x256.size a ≤ S1x58x58x256.size a
  inb_S256x9x256_S256x1x256_0_4_0 : ∀ a, (![0, 4, 0] : Fin 3 → Nat) a + S256x1x256.size a ≤ S256x9x256.size a
  inb_S1x58x58x256_S1x14x56x256_0_1_2_0 : ∀ a, (![0, 1, 2, 0] : Fin 4 → Nat) a + S1x14x56x256.size a ≤ S1x58x58x256.size a
  inb_S256x9x256_S256x1x256_0_5_0 : ∀ a, (![0, 5, 0] : Fin 3 → Nat) a + S256x1x256.size a ≤ S256x9x256.size a
  inb_S1x58x58x256_S1x14x56x256_0_2_0_0 : ∀ a, (![0, 2, 0, 0] : Fin 4 → Nat) a + S1x14x56x256.size a ≤ S1x58x58x256.size a
  inb_S256x9x256_S256x1x256_0_6_0 : ∀ a, (![0, 6, 0] : Fin 3 → Nat) a + S256x1x256.size a ≤ S256x9x256.size a
  inb_S1x58x58x256_S1x14x56x256_0_2_1_0 : ∀ a, (![0, 2, 1, 0] : Fin 4 → Nat) a + S1x14x56x256.size a ≤ S1x58x58x256.size a
  inb_S256x9x256_S256x1x256_0_7_0 : ∀ a, (![0, 7, 0] : Fin 3 → Nat) a + S256x1x256.size a ≤ S256x9x256.size a
  inb_S1x58x58x256_S1x14x56x256_0_2_2_0 : ∀ a, (![0, 2, 2, 0] : Fin 4 → Nat) a + S1x14x56x256.size a ≤ S1x58x58x256.size a
  inb_S256x9x256_S256x1x256_0_8_0 : ∀ a, (![0, 8, 0] : Fin 3 → Nat) a + S256x1x256.size a ≤ S256x9x256.size a
  broadcasts_S1x256_S784x256 : S1x256.Broadcasts S784x256
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  broadcasts_S1x2304_S784x2304 : S1x2304.Broadcasts S784x2304
  slices_S784x2304_o0_0_S784x256 : S784x2304.Slices ![0, 0] S784x256
  slices_S784x2304_o0_256_S784x256 : S784x2304.Slices ![0, 256] S784x256
  slices_S784x2304_o0_512_S784x256 : S784x2304.Slices ![0, 512] S784x256
  slices_S784x2304_o0_768_S784x256 : S784x2304.Slices ![0, 768] S784x256
  slices_S784x2304_o0_1024_S784x256 : S784x2304.Slices ![0, 1024] S784x256
  slices_S784x2304_o0_1280_S784x256 : S784x2304.Slices ![0, 1280] S784x256
  slices_S784x2304_o0_1536_S784x256 : S784x2304.Slices ![0, 1536] S784x256
  slices_S784x2304_o0_1792_S784x256 : S784x2304.Slices ![0, 1792] S784x256
  slices_S784x2304_o0_2048_S784x256 : S784x2304.Slices ![0, 2048] S784x256
  shapeCasts_S784x256_S14x56x256 : S784x256.ShapeCasts S14x56x256
  inb_S1x56x56x256_S1x14x56x256_0_0_0_0 : ∀ a, (![0, 0, 0, 0] : Fin 4 → Nat) a + S1x14x56x256.size a ≤ S1x56x56x256.size a
  shapeCasts_S14x56x256_S1x14x56x256 : S14x56x256.ShapeCasts S1x14x56x256
  inb_S1x58x58x256_S1x14x56x256_0_14_0_0 : ∀ a, (![0, 14, 0, 0] : Fin 4 → Nat) a + S1x14x56x256.size a ≤ S1x58x58x256.size a
  inb_S1x58x58x256_S1x14x56x256_0_14_1_0 : ∀ a, (![0, 14, 1, 0] : Fin 4 → Nat) a + S1x14x56x256.size a ≤ S1x58x58x256.size a
  inb_S1x58x58x256_S1x14x56x256_0_14_2_0 : ∀ a, (![0, 14, 2, 0] : Fin 4 → Nat) a + S1x14x56x256.size a ≤ S1x58x58x256.size a
  inb_S1x58x58x256_S1x14x56x256_0_15_0_0 : ∀ a, (![0, 15, 0, 0] : Fin 4 → Nat) a + S1x14x56x256.size a ≤ S1x58x58x256.size a
  inb_S1x58x58x256_S1x14x56x256_0_15_1_0 : ∀ a, (![0, 15, 1, 0] : Fin 4 → Nat) a + S1x14x56x256.size a ≤ S1x58x58x256.size a
  inb_S1x58x58x256_S1x14x56x256_0_15_2_0 : ∀ a, (![0, 15, 2, 0] : Fin 4 → Nat) a + S1x14x56x256.size a ≤ S1x58x58x256.size a
  inb_S1x58x58x256_S1x14x56x256_0_16_0_0 : ∀ a, (![0, 16, 0, 0] : Fin 4 → Nat) a + S1x14x56x256.size a ≤ S1x58x58x256.size a
  inb_S1x58x58x256_S1x14x56x256_0_16_1_0 : ∀ a, (![0, 16, 1, 0] : Fin 4 → Nat) a + S1x14x56x256.size a ≤ S1x58x58x256.size a
  inb_S1x58x58x256_S1x14x56x256_0_16_2_0 : ∀ a, (![0, 16, 2, 0] : Fin 4 → Nat) a + S1x14x56x256.size a ≤ S1x58x58x256.size a
  inb_S1x56x56x256_S1x14x56x256_0_14_0_0 : ∀ a, (![0, 14, 0, 0] : Fin 4 → Nat) a + S1x14x56x256.size a ≤ S1x56x56x256.size a
  inb_S1x58x58x256_S1x14x56x256_0_28_0_0 : ∀ a, (![0, 28, 0, 0] : Fin 4 → Nat) a + S1x14x56x256.size a ≤ S1x58x58x256.size a
  inb_S1x58x58x256_S1x14x56x256_0_28_1_0 : ∀ a, (![0, 28, 1, 0] : Fin 4 → Nat) a + S1x14x56x256.size a ≤ S1x58x58x256.size a
  inb_S1x58x58x256_S1x14x56x256_0_28_2_0 : ∀ a, (![0, 28, 2, 0] : Fin 4 → Nat) a + S1x14x56x256.size a ≤ S1x58x58x256.size a
  inb_S1x58x58x256_S1x14x56x256_0_29_0_0 : ∀ a, (![0, 29, 0, 0] : Fin 4 → Nat) a + S1x14x56x256.size a ≤ S1x58x58x256.size a
  inb_S1x58x58x256_S1x14x56x256_0_29_1_0 : ∀ a, (![0, 29, 1, 0] : Fin 4 → Nat) a + S1x14x56x256.size a ≤ S1x58x58x256.size a
  inb_S1x58x58x256_S1x14x56x256_0_29_2_0 : ∀ a, (![0, 29, 2, 0] : Fin 4 → Nat) a + S1x14x56x256.size a ≤ S1x58x58x256.size a
  inb_S1x58x58x256_S1x14x56x256_0_30_0_0 : ∀ a, (![0, 30, 0, 0] : Fin 4 → Nat) a + S1x14x56x256.size a ≤ S1x58x58x256.size a
  inb_S1x58x58x256_S1x14x56x256_0_30_1_0 : ∀ a, (![0, 30, 1, 0] : Fin 4 → Nat) a + S1x14x56x256.size a ≤ S1x58x58x256.size a
  inb_S1x58x58x256_S1x14x56x256_0_30_2_0 : ∀ a, (![0, 30, 2, 0] : Fin 4 → Nat) a + S1x14x56x256.size a ≤ S1x58x58x256.size a
  inb_S1x56x56x256_S1x14x56x256_0_28_0_0 : ∀ a, (![0, 28, 0, 0] : Fin 4 → Nat) a + S1x14x56x256.size a ≤ S1x56x56x256.size a
  inb_S1x58x58x256_S1x14x56x256_0_42_0_0 : ∀ a, (![0, 42, 0, 0] : Fin 4 → Nat) a + S1x14x56x256.size a ≤ S1x58x58x256.size a
  inb_S1x58x58x256_S1x14x56x256_0_42_1_0 : ∀ a, (![0, 42, 1, 0] : Fin 4 → Nat) a + S1x14x56x256.size a ≤ S1x58x58x256.size a
  inb_S1x58x58x256_S1x14x56x256_0_42_2_0 : ∀ a, (![0, 42, 2, 0] : Fin 4 → Nat) a + S1x14x56x256.size a ≤ S1x58x58x256.size a
  inb_S1x58x58x256_S1x14x56x256_0_43_0_0 : ∀ a, (![0, 43, 0, 0] : Fin 4 → Nat) a + S1x14x56x256.size a ≤ S1x58x58x256.size a
  inb_S1x58x58x256_S1x14x56x256_0_43_1_0 : ∀ a, (![0, 43, 1, 0] : Fin 4 → Nat) a + S1x14x56x256.size a ≤ S1x58x58x256.size a
  inb_S1x58x58x256_S1x14x56x256_0_43_2_0 : ∀ a, (![0, 43, 2, 0] : Fin 4 → Nat) a + S1x14x56x256.size a ≤ S1x58x58x256.size a
  inb_S1x58x58x256_S1x14x56x256_0_44_0_0 : ∀ a, (![0, 44, 0, 0] : Fin 4 → Nat) a + S1x14x56x256.size a ≤ S1x58x58x256.size a
  inb_S1x58x58x256_S1x14x56x256_0_44_1_0 : ∀ a, (![0, 44, 1, 0] : Fin 4 → Nat) a + S1x14x56x256.size a ≤ S1x58x58x256.size a
  inb_S1x58x58x256_S1x14x56x256_0_44_2_0 : ∀ a, (![0, 44, 2, 0] : Fin 4 → Nat) a + S1x14x56x256.size a ≤ S1x58x58x256.size a
  inb_S1x56x56x256_S1x14x56x256_0_42_0_0 : ∀ a, (![0, 42, 0, 0] : Fin 4 → Nat) a + S1x14x56x256.size a ≤ S1x56x56x256.size a
  shapeCasts_S8x56x56x256_S8x3136x256 : S8x56x56x256.ShapeCasts S8x3136x256
  dot_S784x256_S256x256_S784x256_1_0_0_1_n_n_wf : DotDims.WF S784x256 S256x256 S784x256 [1] [0] [0] [1] [] []
  dot_S784x256_S256x2304_S784x2304_1_0_0_1_n_n_wf : DotDims.WF S784x256 S256x2304 S784x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x256.size a ≤ S8x58x58x256.size a
  hwx0_0 : ∀ i : grid0.Coords, EltTy.bits .bf16 = 32 ∨ (Rect.block (s := S8x58x58x256) S1x58x58x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x9x256.size a ≤ S256x9x256.size a
  hwx0_1 : ∀ i : grid0.Coords, EltTy.bits .bf16 = 32 ∨ (Rect.block (s := S256x9x256) S256x9x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S256x2304.size a
  hwx0_3 : ∀ i : grid0.Coords, EltTy.bits .bf16 = 32 ∨ (Rect.block (s := S256x2304) S256x2304.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2304.size a ≤ S1x2304.size a
  hwx0_4 : ∀ i : grid0.Coords, EltTy.bits .f32 = 32 ∨ (Rect.block (s := S1x2304) S1x2304.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x9x256.size a ≤ S256x9x256.size a
  hwx0_5 : ∀ i : grid0.Coords, EltTy.bits .bf16 = 32 ∨ (Rect.block (s := S256x9x256) S256x9x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x56x56x256.size a ≤ S8x56x56x256.size a
  hwx0_7 : ∀ i : grid0.Coords, EltTy.bits .f32 = 32 ∨ (Rect.block (s := S8x56x56x256) S1x56x56x256.size (cc0_transform_7 i) (hinb0_7 i)).WholeWords (EltTy.packing .f32)

variable [Facts₀]

def dot_S784x256_S256x256_S784x256_1_0_0_1_n_n : DotDims S784x256 S256x256 S784x256 where
  lhsContracting := [1]
  rhsContracting := [0]
  lhsNonContracting := [0]
  rhsNonContracting := [1]
  lhsBatch := []
  rhsBatch := []
  wf := dot_S784x256_S256x256_S784x256_1_0_0_1_n_n_wf
def dot_S784x256_S256x2304_S784x2304_1_0_0_1_n_n : DotDims S784x256 S256x2304 S784x2304 where
  lhsContracting := [1]
  rhsContracting := [0]
  lhsNonContracting := [0]
  rhsNonContracting := [1]
  lhsBatch := []
  rhsBatch := []
  wf := dot_S784x256_S256x2304_S784x2304_1_0_0_1_n_n_wf

abbrev win0_0 : Pipeline.Window sig grid0 :=
  Pipeline.Window.ofSpec (Memref.whole main_v2) S1x58x58x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x9x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x2304.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x9x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x56x56x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x56x56 : Shape := ⟨4, ![8, 256, 56, 56]⟩
abbrev S2304x256 : Shape := ⟨2, ![2304, 256]⟩
abbrev S256 : Shape := ⟨1, ![256]⟩
abbrev S256x2304 : Shape := ⟨2, ![256, 2304]⟩
abbrev S2304 : Shape := ⟨1, ![2304]⟩
abbrev S_ : Shape := ⟨0, ![]⟩
abbrev S8x256x58x58 : Shape := ⟨4, ![8, 256, 58, 58]⟩
abbrev S8x256x1x56x56 : Shape := ⟨5, ![8, 256, 1, 56, 56]⟩
abbrev S8x256x9x56x56 : Shape := ⟨5, ![8, 256, 9, 56, 56]⟩
abbrev S8x2304x3136 : Shape := ⟨3, ![8, 2304, 3136]⟩
abbrev S8x3136x2304 : Shape := ⟨3, ![8, 3136, 2304]⟩
abbrev S8x3136x256 : Shape := ⟨3, ![8, 3136, 256]⟩
abbrev S1x1x256 : Shape := ⟨3, ![1, 1, 256]⟩
abbrev S1x1x2304 : Shape := ⟨3, ![1, 1, 2304]⟩

abbrev nBuf : Space → Nat
  | .hbm => 55
  | .vmem => 0
  | .smem => 0
  | _ => 0

abbrev bufTy : (tb : Table) → Fin (tcTables nBuf tb) → BufTy
  | .hbm, ⟨0, _⟩ => ⟨S8x256x56x56, .f32⟩
  | .hbm, ⟨1, _⟩ => ⟨S2304x256, .f32⟩
  | .hbm, ⟨2, _⟩ => ⟨S256, .f32⟩
  | .hbm, ⟨3, _⟩ => ⟨S256x2304, .f32⟩
  | .hbm, ⟨4, _⟩ => ⟨S2304, .f32⟩
  | .hbm, ⟨5, _⟩ => ⟨S2304x256, .f32⟩
  | .hbm, ⟨6, _⟩ => ⟨S256, .f32⟩
  | .hbm, ⟨7, _⟩ => ⟨S_, .i32⟩
  | .hbm, ⟨8, _⟩ => ⟨S_, .f32⟩
  | .hbm, ⟨9, _⟩ => ⟨S8x256x58x58, .f32⟩
  | .hbm, ⟨10, _⟩ => ⟨S8x256x56x56, .f32⟩
  | .hbm, ⟨11, _⟩ => ⟨S8x256x56x56, .f32⟩
  | .hbm, ⟨12, _⟩ => ⟨S8x256x56x56, .f32⟩
  | .hbm, ⟨13, _⟩ => ⟨S8x256x56x56, .f32⟩
  | .hbm, ⟨14, _⟩ => ⟨S8x256x56x56, .f32⟩
  | .hbm, ⟨15, _⟩ => ⟨S8x256x56x56, .f32⟩
  | .hbm, ⟨16, _⟩ => ⟨S8x256x56x56, .f32⟩
  | .hbm, ⟨17, _⟩ => ⟨S8x256x56x56, .f32⟩
  | .hbm, ⟨18, _⟩ => ⟨S8x256x56x56, .f32⟩
  | .hbm, ⟨19, _⟩ => ⟨S8x256x1x56x56, .f32⟩
  | .hbm, ⟨20, _⟩ => ⟨S8x256x1x56x56, .f32⟩
  | .hbm, ⟨21, _⟩ => ⟨S8x256x1x56x56, .f32⟩
  | .hbm, ⟨22, _⟩ => ⟨S8x256x1x56x56, .f32⟩
  | .hbm, ⟨23, _⟩ => ⟨S8x256x1x56x56, .f32⟩
  | .hbm, ⟨24, _⟩ => ⟨S8x256x1x56x56, .f32⟩
  | .hbm, ⟨25, _⟩ => ⟨S8x256x1x56x56, .f32⟩
  | .hbm, ⟨26, _⟩ => ⟨S8x256x1x56x56, .f32⟩
  | .hbm, ⟨27, _⟩ => ⟨S8x256x1x56x56, .f32⟩
  | .hbm, ⟨28, _⟩ => ⟨S8x256x9x56x56, .f32⟩
  | .hbm, ⟨29, _⟩ => ⟨S8x2304x3136, .f32⟩
  | .hbm, ⟨30, _⟩ => ⟨S8x3136x2304, .f32⟩
  | .hbm, ⟨31, _⟩ => ⟨S8x3136x256, .f32⟩
  | .hbm, ⟨32, _⟩ => ⟨S1x1x256, .f32⟩
  | .hbm, ⟨33, _⟩ => ⟨S8x3136x256, .f32⟩
  | .hbm, ⟨34, _⟩ => ⟨S8x3136x256, .f32⟩
  | .hbm, ⟨35, _⟩ => ⟨S_, .f32⟩
  | .hbm, ⟨36, _⟩ => ⟨S8x3136x256, .f32⟩
  | .hbm, ⟨37, _⟩ => ⟨S8x3136x256, .f32⟩
  | .hbm, ⟨38, _⟩ => ⟨S8x3136x2304, .f32⟩
  | .hbm, ⟨39, _⟩ => ⟨S1x1x2304, .f32⟩
  | .hbm, ⟨40, _⟩ => ⟨S8x3136x2304, .f32⟩
  | .hbm, ⟨41, _⟩ => ⟨S8x3136x2304, .f32⟩
  | .hbm, ⟨42, _⟩ => ⟨S8x3136x2304, .f32⟩
  | .hbm, ⟨43, _⟩ => ⟨S8x3136x2304, .f32⟩
  | .hbm, ⟨44, _⟩ => ⟨S_, .f32⟩
  | .hbm, ⟨45, _⟩ => ⟨S8x3136x2304, .f32⟩
  | .hbm, ⟨46, _⟩ => ⟨S8x3136x2304, .f32⟩
  | .hbm, ⟨47, _⟩ => ⟨S_, .f32⟩
  | .hbm, ⟨48, _⟩ => ⟨S8x3136x2304, .f32⟩
  | .hbm, ⟨49, _⟩ => ⟨S8x3136x2304, .f32⟩
  | .hbm, ⟨50, _⟩ => ⟨S8x3136x2304, .f32⟩
  | .hbm, ⟨51, _⟩ => ⟨S8x3136x256, .f32⟩
  | .hbm, ⟨52, _⟩ => ⟨S1x1x256, .f32⟩
  | .hbm, ⟨53, _⟩ => ⟨S8x3136x256, .f32⟩
  | .hbm, ⟨54, _⟩ => ⟨S8x3136x256, .f32⟩
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_cst : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  pads_S8x256x56x56_S8x256x58x58_000_000_110_110 : S8x256x56x56.Pads (![0, 0, 1, 1] : Fin 4 → Nat) ![0, 0, 1, 1] ![0, 0, 0, 0] S8x256x58x58
  h_S_ : 0 < S_.numel
  slices_S8x256x58x58_S8x256x56x56_0_0_0_0 : S8x256x58x58.Slices ![0, 0, 0, 0] S8x256x56x56
  slices_S8x256x58x58_S8x256x56x56_0_0_0_1 : S8x256x58x58.Slices ![0, 0, 0, 1] S8x256x56x56
  slices_S8x256x58x58_S8x256x56x56_0_0_0_2 : S8x256x58x58.Slices ![0, 0, 0, 2] S8x256x56x56
  slices_S8x256x58x58_S8x256x56x56_0_0_1_0 : S8x256x58x58.Slices ![0, 0, 1, 0] S8x256x56x56
  slices_S8x256x58x58_S8x256x56x56_0_0_1_1 : S8x256x58x58.Slices ![0, 0, 1, 1] S8x256x56x56
  slices_S8x256x58x58_S8x256x56x56_0_0_1_2 : S8x256x58x58.Slices ![0, 0, 1, 2] S8x256x56x56
  slices_S8x256x58x58_S8x256x56x56_0_0_2_0 : S8x256x58x58.Slices ![0, 0, 2, 0] S8x256x56x56
  slices_S8x256x58x58_S8x256x56x56_0_0_2_1 : S8x256x58x58.Slices ![0, 0, 2, 1] S8x256x56x56
  slices_S8x256x58x58_S8x256x56x56_0_0_2_2 : S8x256x58x58.Slices ![0, 0, 2, 2] S8x256x56x56
  bcast_S8x256x56x56_S8x256x1x56x56_0_1_3_4 : S8x256x56x56.BroadcastsInDim S8x256x1x56x56 (![0, 1, 3, 4] : Fin 4 → Fin S8x256x1x56x56.rank)
  concatenates_S8x256x1x56x56_S8x256x1x56x56_S8x256x1x56x56_S8x256x1x56x56_S8x256x1x56x56_S8x256x1x56x56_S8x256x1x56x56_S8x256x1x56x56_S8x256x1x56x56_S8x256x9x56x56_d2 : Shape.Concatenates [S8x256x1x56x56, S8x256x1x56x56, S8x256x1x56x56, S8x256x1x56x56, S8x256x1x56x56, S8x256x1x56x56, S8x256x1x56x56, S8x256x1x56x56, S8x256x1x56x56] S8x256x9x56x56 2
  shapeCasts_S8x256x9x56x56_S8x2304x3136 : S8x256x9x56x56.ShapeCasts S8x2304x3136
  transposes_S8x2304x3136_S8x3136x2304_0_2_1 : S8x2304x3136.Transposes [0, 2, 1] S8x3136x2304
  bcast_S256_S1x1x256_2 : S256.BroadcastsInDim S1x1x256 (![2] : Fin 1 → Fin S1x1x256.rank)
  bcast_S1x1x256_S8x3136x256_0_1_2 : S1x1x256.BroadcastsInDim S8x3136x256 (![0, 1, 2] : Fin 3 → Fin S8x3136x256.rank)
  bcast_S_S8x3136x256 : S_.BroadcastsInDim S8x3136x256 (![] : Fin 0 → Fin S8x3136x256.rank)
  bcast_S2304_S1x1x2304_2 : S2304.BroadcastsInDim S1x1x2304 (![2] : Fin 1 → Fin S1x1x2304.rank)
  bcast_S1x1x2304_S8x3136x2304_0_1_2 : S1x1x2304.BroadcastsInDim S8x3136x2304 (![0, 1, 2] : Fin 3 → Fin S8x3136x2304.rank)
  bcast_S_S8x3136x2304 : S_.BroadcastsInDim S8x3136x2304 (![] : Fin 0 → Fin S8x3136x2304.rank)
  dot_S8x3136x2304_S2304x256_S8x3136x256_2_0_01_1_n_n_wf : DotDims.WF S8x3136x2304 S2304x256 S8x3136x256 [2] [0] [0, 1] [1] [] []
  dot_S8x3136x256_S256x2304_S8x3136x2304_2_0_01_1_n_n_wf : DotDims.WF S8x3136x256 S256x2304 S8x3136x2304 [2] [0] [0, 1] [1] [] []

variable [Facts₀]

def dot_S8x3136x2304_S2304x256_S8x3136x256_2_0_01_1_n_n : DotDims S8x3136x2304 S2304x256 S8x3136x256 where
  lhsContracting := [2]
  rhsContracting := [0]
  lhsNonContracting := [0, 1]
  rhsNonContracting := [1]
  lhsBatch := []
  rhsBatch := []
  wf := dot_S8x3136x2304_S2304x256_S8x3136x256_2_0_01_1_n_n_wf
def dot_S8x3136x256_S256x2304_S8x3136x2304_2_0_01_1_n_n : DotDims S8x3136x256 S256x2304 S8x3136x2304 where
  lhsContracting := [2]
  rhsContracting := [0]
  lhsNonContracting := [0, 1]
  rhsNonContracting := [1]
  lhsBatch := []
  rhsBatch := []
  wf := dot_S8x3136x256_S256x2304_S8x3136x2304_2_0_01_1_n_n_wf

class Facts : Prop extends Facts₀ where

variable [Facts]
-- ==== Proof.Spec.lean ====
/-
  The function both programs compute, entry by entry, and the one law that joins their two arrangements.

  The image `x[b, c, ·, ·]` is padded by one ring of zeros. The patch of pixel `(r, w)` has, for channel `c` and
  offset `o = 3·ki + kj`, the padded entry at `(r + ki, w + kj)`; flattened it is indexed by `d = c·9 + o`. Three dense
  layers follow: `hidden = max (patch · W1 + b1) 0`, `gate = logistic (hidden · W2 + b2)` and
  `out = (patch ⊙ gate) · W3 + b3`.

  One program sums over `d` at once; the other adds, left to right onto zero, the nine partial sums over the channels,
  one for each offset. Addition of extended reals is commutative and associative, so the two agree
  (`sum_split_offsets`); no finiteness is used.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.GatedPatch

/-! ## Nine terms added left to right onto zero -/

/-- `(((0 + g 0) + g 1) + … ) + g 8`. -/
def add9 (g : Fin 9 → EReal) : EReal :=
  0 + g 0 + g 1 + g 2 + g 3 + g 4 + g 5 + g 6 + g 7 + g 8

theorem add9_eq_sum (g : Fin 9 → EReal) : add9 g = ∑ o : Fin 9, g o := by
  unfold add9
  rw [Fin.sum_univ_castSucc, Fin.sum_univ_eight, zero_add]
  rfl

/-- The flat patch coordinate of channel `c` and offset `o`. -/
def flat (c : Fin 256) (o : Fin 9) : Fin 2304 := ⟨c.val * 9 + o.val, by omega⟩

theorem flat_div (c : Fin 256) (o : Fin 9) : (flat c o).val / 9 = c.val := by
  show (c.val * 9 + o.val) / 9 = c.val
  omega
theorem flat_mod (c : Fin 256) (o : Fin 9) : (flat c o).val % 9 = o.val := by
  show (c.val * 9 + o.val) % 9 = o.val
  omega

/-- Channels and offsets together are the flat coordinates. -/
def flatEquiv : Fin 256 × Fin 9 ≃ Fin 2304 where
  toFun p := flat p.1 p.2
  invFun d := (⟨d.val / 9, by omega⟩, ⟨d.val % 9, by omega⟩)
  left_inv p := by
    apply Prod.ext
    · exact Fin.ext (flat_div p.1 p.2)
    · exact Fin.ext (flat_mod p.1 p.2)
  right_inv d := by
    apply Fin.ext
    show d.val / 9 * 9 + d.val % 9 = d.val
    omega

/-- A sum over the flat coordinate is the nine offsets' sums over the channels, added left to right onto zero. -/
theorem sum_split_offsets (f : Fin 2304 → EReal) :
    ∑ d : Fin 2304, f d = add9 fun o => ∑ c : Fin 256, f (flat c o) := by
  rw [add9_eq_sum, ← Equiv.sum_comp flatEquiv f, Fintype.sum_prod_type, Finset.sum_comm]
  rfl

/-! ## The function -/

section Fn
variable (x : FVec Ideal ⟨4, ![8, 256, 56, 56]⟩ .f32) (W1 : FVec Ideal ⟨2, ![2304, 256]⟩ .f32) (b1 : FVec Ideal ⟨1, ![256]⟩ .f32)
  (W2 : FVec Ideal ⟨2, ![256, 2304]⟩ .f32) (b2 : FVec Ideal ⟨1, ![2304]⟩ .f32) (W3 : FVec Ideal ⟨2, ![2304, 256]⟩ .f32)
  (b3 : FVec Ideal ⟨1, ![256]⟩ .f32)

/-- The image with one ring of zeros around each channel's 56 × 56 plane. -/
def padded (b : Fin 8) (c : Fin 256) (i j : Fin 58) : EReal :=
  if h : (1 ≤ i.val ∧ i.val ≤ 56) ∧ (1 ≤ j.val ∧ j.val ≤ 56) then
    x (ix4 b c ⟨i.val - 1, by omega⟩ ⟨j.val - 1, by omega⟩)
  else 0

/-- The patch of pixel `(r, w)`: channel `c`, offset `o = 3·ki + kj`. -/
def patch (b : Fin 8) (r w : Fin 56) (c : Fin 256) (o : Fin 9) : EReal :=
  padded x b c ⟨r.val + o.val / 3, by omega⟩ ⟨w.val + o.val % 3, by omega⟩

/-- The same at the flat coordinate `d = c·9 + o`. -/
def patchFlat (b : Fin 8) (r w : Fin 56) (d : Fin 2304) : EReal :=
  patch x b r w ⟨d.val / 9, by omega⟩ ⟨d.val % 9, by omega⟩

theorem patchFlat_flat (b : Fin 8) (r w : Fin 56) (c : Fin 256) (o : Fin 9) :
    patchFlat x b r w (flat c o) = patch x b r w c o := by
  unfold patchFlat
  congr 1
  · exact Fin.ext (flat_div c o)
  · exact Fin.ext (flat_mod c o)

/-- First layer and its rectifier. -/
def hidden (b : Fin 8) (r w : Fin 56) (c : Fin 256) : EReal :=
  max ((∑ d : Fin 2304, patchFlat x b r w d * W1 (ix2 d c)) + b1 (ix1 c)) 0

/-- Second layer and its logistic. -/
def gate (b : Fin 8) (r w : Fin 56) (d : Fin 2304) : EReal :=
  Ideal.logistic ((∑ c : Fin 256, hidden x W1 b1 b r w c * W2 (ix2 c d)) + b2 (ix1 d))

/-- Third layer over the gated patch. -/
def outAt (b : Fin 8) (r w : Fin 56) (c' : Fin 256) : EReal :=
  (∑ d : Fin 2304, (patchFlat x b r w d * gate x W1 b1 W2 b2 b r w d) * W3 (ix2 d c')) + b3 (ix1 c')

/-- The result array `[8, 56·56, 256]`: pixel `(r, w)` at row `r·56 + w`. -/
def result : FVec Ideal ⟨3, ![8, 3136, 256]⟩ .f32 := fun i =>
  outAt x W1 b1 W2 b2 W3 b3 ⟨(i 0).val, (i 0).isLt⟩
    ⟨(i 1).val / 56, by have h : (i 1).val < 3136 := (i 1).isLt; omega⟩
    ⟨(i 1).val % 56, by omega⟩ ⟨(i 2).val, (i 2).isLt⟩

/-! ## The offset-by-offset arrangement -/

/-- First layer, the nine offsets' channel sums added left to right. -/
theorem hidden_offsets (b : Fin 8) (r w : Fin 56) (c : Fin 256) :
    hidden x W1 b1 b r w c
      = max ((add9 fun o => ∑ c0 : Fin 256, patch x b r w c0 o * W1 (ix2 (flat c0 o) c)) + b1 (ix1 c)) 0 := by
  unfold hidden
  rw [sum_split_offsets]
  simp only [patchFlat_flat]

/-- Third layer, the nine offsets' channel sums added left to right. -/
theorem outAt_offsets (b : Fin 8) (r w : Fin 56) (c' : Fin 256) :
    outAt x W1 b1 W2 b2 W3 b3 b r w c'
      = (add9 fun o => ∑ c2 : Fin 256,
          (patch x b r w c2 o * gate x W1 b1 W2 b2 b r w (flat c2 o)) * W3 (ix2 (flat c2 o) c')) + b3 (ix1 c') := by
  unfold outAt
  rw [sum_split_offsets]
  simp only [patchFlat_flat]

end Fn

end Cert.GatedPatch

end
-- ==== Proof.TileFn.lean ====
/-
  One tile of fourteen image rows, as the kernel body computes it: nine shifted slices of the padded image, each
  multiplied by its slice of the first weight and added left to right onto zero; the bias, the rectifier; the second
  weight, its bias and the logistic; then the nine slices again, each gated by its 256 columns of the logistic's
  output, multiplied by its slice of the third weight and added left to right onto zero; the last bias. The body
  computes four such tiles, at rows 0, 14, 28 and 42, and stores each into its fourteen rows of the output block.
-/
import proofs.«163215_j12000138625349_1_alg».proof.Proof.Gen.KernelIdeal.Frame

noncomputable section

namespace Cert.KernelIdeal.Tile

open Idealize.ShloMosaic Idealize.SL.Sem Cert.KernelIdeal Cert.KernelIdeal.Gen

variable {F : FTy → Type} [FloatOps F]

/-- A slice of fourteen rows as a 784 × 256 matrix, one row per pixel. -/
def rows (a : Vec F S1x14x56x256 .bf16) : FVec F S784x256 .bf16 :=
  shapeCast S784x256 (shapeCast S14x56x256 a shapeCasts_S1x14x56x256_S14x56x256) shapeCasts_S14x56x256_S784x256

/-- One offset's 256 × 256 weight. -/
def wmat (u : Vec F S256x1x256 .bf16) : FVec F S256x256 .bf16 := shapeCast S256x256 u shapeCasts_S256x1x256_S256x256

/-- A product into the zero accumulator. -/
def mm (p : FVec F S784x256 .bf16) (q : FVec F S256x256 .bf16) : FVec F S784x256 .f32 :=
  matmul dot_S784x256_S256x256_S784x256_1_0_0_1_n_n none p q (constant S784x256 .f32 0x00000000#32)

/-- The zero a running sum starts from. -/
def zero784 : FVec F S784x256 .f32 := broadcast S784x256 (Scalar.ofBits .f32 0x00000000#32)

/-- A slice's rows times their 256 columns of the gate. -/
def gatedRows (a : Vec F S1x14x56x256 .bf16) (s : FVec F S784x2304 .f32) (off : Fin 2 → Nat) (hs : S784x2304.Slices off S784x256) :
    FVec F S784x256 .bf16 :=
  truncf .bf16 (mulf (extf .f32 (rows a) bitsLt_bf16_f32) (extractStridedSlice S784x256 off s hs)) bitsLt_bf16_f32

/-- First layer before its bias: the nine offsets' products added left to right. -/
def pre1 (a0 a1 a2 a3 a4 a5 a6 a7 a8 : Vec F S1x14x56x256 .bf16) (u0 u1 u2 u3 u4 u5 u6 u7 u8 : Vec F S256x1x256 .bf16) : FVec F S784x256 .f32 :=
  addf (addf (addf (addf (addf (addf (addf (addf (addf (zero784) (mm (rows a0) (wmat u0))) (mm (rows a1) (wmat u1))) (mm (rows a2) (wmat u2))) (mm (rows a3) (wmat u3))) (mm (rows a4) (wmat u4))) (mm (rows a5) (wmat u5))) (mm (rows a6) (wmat u6))) (mm (rows a7) (wmat u7))) (mm (rows a8) (wmat u8))

/-- The rectified first layer. -/
def hid (p : FVec F S784x256 .f32) (B1 : FVec F S1x256 .f32) : FVec F S784x256 .bf16 :=
  truncf .bf16 (maximumf (addf p (broadcastTo S784x256 B1 broadcasts_S1x256_S784x256)) zero784) bitsLt_bf16_f32

/-- The gate: second layer, bias, logistic. -/
def gates (h : FVec F S784x256 .bf16) (w2 : Vec F S256x2304 .bf16) (B2 : FVec F S1x2304 .f32) : FVec F S784x2304 .f32 :=
  logistic (addf (matmul dot_S784x256_S256x2304_S784x2304_1_0_0_1_n_n none h (shapeCast S256x2304 w2 shapeCasts_S256x2304_S256x2304)
    (constant S784x2304 .f32 0x00000000#32)) (broadcastTo S784x2304 B2 broadcasts_S1x2304_S784x2304))

/-- Third layer before its bias: the nine gated products added left to right. -/
def pre3 (a0 a1 a2 a3 a4 a5 a6 a7 a8 : Vec F S1x14x56x256 .bf16) (s : FVec F S784x2304 .f32) (v0 v1 v2 v3 v4 v5 v6 v7 v8 : Vec F S256x1x256 .bf16) : FVec F S784x256 .f32 :=
  addf (addf (addf (addf (addf (addf (addf (addf (addf (zero784) (mm (gatedRows a0 s ![0, 0] slices_S784x2304_o0_0_S784x256) (wmat v0))) (mm (gatedRows a1 s ![0, 256] slices_S784x2304_o0_256_S784x256) (wmat v1))) (mm (gatedRows a2 s ![0, 512] slices_S784x2304_o0_512_S784x256) (wmat v2))) (mm (gatedRows a3 s ![0, 768] slices_S784x2304_o0_768_S784x256) (wmat v3))) (mm (gatedRows a4 s ![0, 1024] slices_S784x2304_o0_1024_S784x256) (wmat v4))) (mm (gatedRows a5 s ![0, 1280] slices_S784x2304_o0_1280_S784x256) (wmat v5))) (mm (gatedRows a6 s ![0, 1536] slices_S784x2304_o0_1536_S784x256) (wmat v6))) (mm (gatedRows a7 s ![0, 1792] slices_S784x2304_o0_1792_S784x256) (wmat v7))) (mm (gatedRows a8 s ![0, 2048] slices_S784x2304_o0_2048_S784x256) (wmat v8))

/-- The tile's fourteen rows of output. -/
def tile (a0 a1 a2 a3 a4 a5 a6 a7 a8 : Vec F S1x14x56x256 .bf16) (u0 u1 u2 u3 u4 u5 u6 u7 u8 : Vec F S256x1x256 .bf16) (B1 : FVec F S1x256 .f32) (w2 : Vec F S256x2304 .bf16) (B2 : FVec F S1x2304 .f32) (v0 v1 v2 v3 v4 v5 v6 v7 v8 : Vec F S256x1x256 .bf16) (B3 : FVec F S1x256 .f32) : FVec F S1x14x56x256 .f32 :=
  shapeCast S1x14x56x256 (shapeCast S14x56x256
    (addf (pre3 a0 a1 a2 a3 a4 a5 a6 a7 a8 (gates (hid (pre1 a0 a1 a2 a3 a4 a5 a6 a7 a8 u0 u1 u2 u3 u4 u5 u6 u7 u8) B1) w2 B2) v0 v1 v2 v3 v4 v5 v6 v7 v8) (broadcastTo S784x256 B3 broadcasts_S1x256_S784x256))
    shapeCasts_S784x256_S14x56x256) shapeCasts_S14x56x256_S1x14x56x256

/-- What the body leaves in the output block: the four tiles, each in its fourteen rows (last stored first). -/
theorem out_eq_tiles (x0 : Vec F S1x58x58x256 .bf16) (x1 : Vec F S256x9x256 .bf16) (x2 : Vec F S1x256 .f32) (x3 : Vec F S256x2304 .bf16)
    (x4 : Vec F S1x2304 .f32) (x5 : Vec F S256x9x256 .bf16) (x6 : Vec F S1x256 .f32) :
    out0_7 x0 x1 x2 x3 x4 x5 x6 = View.canon
      [⟨r0_51, tile (View.ld x0 r0_42) (View.ld x0 r0_43) (View.ld x0 r0_44) (View.ld x0 r0_45) (View.ld x0 r0_46) (View.ld x0 r0_47) (View.ld x0 r0_48) (View.ld x0 r0_49) (View.ld x0 r0_50) (View.ld x1 r0_3) (View.ld x1 r0_5) (View.ld x1 r0_7) (View.ld x1 r0_9) (View.ld x1 r0_11) (View.ld x1 r0_13) (View.ld x1 r0_15) (View.ld x1 r0_17) (View.ld x1 r0_19) (k0_pay2 (View.ld x2 r0_0)) (View.ld x3 r0_20) (k0_pay3 (View.ld x4 r0_1)) (View.ld x5 r0_3) (View.ld x5 r0_5) (View.ld x5 r0_7) (View.ld x5 r0_9) (View.ld x5 r0_11) (View.ld x5 r0_13) (View.ld x5 r0_15) (View.ld x5 r0_17) (View.ld x5 r0_19) (k0_pay4 (View.ld x6 r0_0))⟩,
       ⟨r0_41, tile (View.ld x0 r0_32) (View.ld x0 r0_33) (View.ld x0 r0_34) (View.ld x0 r0_35) (View.ld x0 r0_36) (View.ld x0 r0_37) (View.ld x0 r0_38) (View.ld x0 r0_39) (View.ld x0 r0_40) (View.ld x1 r0_3) (View.ld x1 r0_5) (View.ld x1 r0_7) (View.ld x1 r0_9) (View.ld x1 r0_11) (View.ld x1 r0_13) (View.ld x1 r0_15) (View.ld x1 r0_17) (View.ld x1 r0_19) (k0_pay2 (View.ld x2 r0_0)) (View.ld x3 r0_20) (k0_pay3 (View.ld x4 r0_1)) (View.ld x5 r0_3) (View.ld x5 r0_5) (View.ld x5 r0_7) (View.ld x5 r0_9) (View.ld x5 r0_11) (View.ld x5 r0_13) (View.ld x5 r0_15) (View.ld x5 r0_17) (View.ld x5 r0_19) (k0_pay4 (View.ld x6 r0_0))⟩,
       ⟨r0_31, tile (View.ld x0 r0_22) (View.ld x0 r0_23) (View.ld x0 r0_24) (View.ld x0 r0_25) (View.ld x0 r0_26) (View.ld x0 r0_27) (View.ld x0 r0_28) (View.ld x0 r0_29) (View.ld x0 r0_30) (View.ld x1 r0_3) (View.ld x1 r0_5) (View.ld x1 r0_7) (View.ld x1 r0_9) (View.ld x1 r0_11) (View.ld x1 r0_13) (View.ld x1 r0_15) (View.ld x1 r0_17) (View.ld x1 r0_19) (k0_pay2 (View.ld x2 r0_0)) (View.ld x3 r0_20) (k0_pay3 (View.ld x4 r0_1)) (View.ld x5 r0_3) (View.ld x5 r0_5) (View.ld x5 r0_7) (View.ld x5 r0_9) (View.ld x5 r0_11) (View.ld x5 r0_13) (View.ld x5 r0_15) (View.ld x5 r0_17) (View.ld x5 r0_19) (k0_pay4 (View.ld x6 r0_0))⟩,
       ⟨r0_21, tile (View.ld x0 r0_2) (View.ld x0 r0_4) (View.ld x0 r0_6) (View.ld x0 r0_8) (View.ld x0 r0_10) (View.ld x0 r0_12) (View.ld x0 r0_14) (View.ld x0 r0_16) (View.ld x0 r0_18) (View.ld x1 r0_3) (View.ld x1 r0_5) (View.ld x1 r0_7) (View.ld x1 r0_9) (View.ld x1 r0_11) (View.ld x1 r0_13) (View.ld x1 r0_15) (View.ld x1 r0_17) (View.ld x1 r0_19) (k0_pay2 (View.ld x2 r0_0)) (View.ld x3 r0_20) (k0_pay3 (View.ld x4 r0_1)) (View.ld x5 r0_3) (View.ld x5 r0_5) (View.ld x5 r0_7) (View.ld x5 r0_9) (View.ld x5 r0_11) (View.ld x5 r0_13) (View.ld x5 r0_15) (View.ld x5 r0_17) (View.ld x5 r0_19) (k0_pay4 (View.ld x6 r0_0))⟩] := by
  unfold out0_7
  rfl

end Cert.KernelIdeal.Tile

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.TilePrims.lean ====
/-
  The tile's building blocks read at an index, at the ideal values: a slice's pixel rows, an offset's weight, a product
  into zero as a sum over the 256 input channels, the biases' broadcasts, a 256-column slice of the gate, and the two
  shape casts that lay the 784 pixel rows back out as fourteen image rows.
-/
import proofs.«163215_j12000138625349_1_alg».proof.Proof.TileFn
import proofs.«163215_j12000138625349_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Tile

open Idealize.ShloMosaic Idealize.ShloMosaic.ValueIdx Idealize.SL.Sem Cert.KernelIdeal Cert.KernelIdeal.Gen

/-- Pixel `(r, w)` of a tile of fourteen rows, as a row of the 784 × 256 matrix. -/
def pix (r : Fin 14) (w : Fin 56) : Fin 784 := ⟨r.val * 56 + w.val, by omega⟩

/-- Column `c` of offset `o`'s block of 256 among the gate's 2304 columns. -/
def col (o : Fin 9) (c : Fin 256) : Fin 2304 := ⟨o.val * 256 + c.val, by omega⟩

theorem rows_apply (a : Vec Ideal S1x14x56x256 .bf16) (r : Fin 14) (w : Fin 56) (c : Fin 256) :
    rows a (ix2 (pix r w) c) = a (ix4 0 r w c) := by
  unfold rows
  refine (shapeCast_apply _ shapeCasts_S14x56x256_S784x256 (ix2 (pix r w) c) (ix3 r w c) ?_).trans ?_
  · rw [Shape.rowMajor_val_three, Shape.rowMajor_val_two]
    rfl
  · refine shapeCast_apply a shapeCasts_S1x14x56x256_S14x56x256 (ix3 r w c) (ix4 0 r w c) ?_
    rw [Shape.rowMajor_val_four, Shape.rowMajor_val_three]
    show ((0 * 14 + r.val) * 56 + w.val) * 256 + c.val = (r.val * 56 + w.val) * 256 + c.val
    omega

theorem wmat_apply (u : Vec Ideal S256x1x256 .bf16) (k c : Fin 256) :
    wmat u (ix2 k c) = u (ix3 k 0 c) := by
  unfold wmat
  refine shapeCast_apply u shapeCasts_S256x1x256_S256x256 (ix2 k c) (ix3 k 0 c) ?_
  rw [Shape.rowMajor_val_three, Shape.rowMajor_val_two]
  show (k.val * 1 + 0) * 256 + c.val = k.val * 256 + c.val
  omega

/-! The two records' index maps: rows of the left operand, columns of the right, one contracted axis. -/

theorem sq_l0 (i : S784x256.Idx) (q : dot_S784x256_S256x256_S784x256_1_0_0_1_n_n.contr.Idx) :
    (dot_S784x256_S256x256_S784x256_1_0_0_1_n_n.lhsIdx i q 0).val = (i 0).val := by
  unfold DotDims.lhsIdx
  rw [dif_neg (show ¬(0 : Fin S784x256.rank) ∈ dot_S784x256_S256x256_S784x256_1_0_0_1_n_n.lhsBatch by decide), dif_pos (show (0 : Fin S784x256.rank) ∈ dot_S784x256_S256x256_S784x256_1_0_0_1_n_n.lhsNonContracting by decide)]
  rfl
theorem sq_l1 (i : S784x256.Idx) (q : dot_S784x256_S256x256_S784x256_1_0_0_1_n_n.contr.Idx) :
    (dot_S784x256_S256x256_S784x256_1_0_0_1_n_n.lhsIdx i q 1).val = (q ⟨0, by decide⟩).val :=
  dot_S784x256_S256x256_S784x256_1_0_0_1_n_n.lhsIdx_val_of_single rfl i q
theorem sq_r0 (i : S784x256.Idx) (q : dot_S784x256_S256x256_S784x256_1_0_0_1_n_n.contr.Idx) :
    (dot_S784x256_S256x256_S784x256_1_0_0_1_n_n.rhsIdx i q 0).val = (q ⟨0, by decide⟩).val :=
  dot_S784x256_S256x256_S784x256_1_0_0_1_n_n.rhsIdx_val_of_single rfl i q
theorem sq_r1 (i : S784x256.Idx) (q : dot_S784x256_S256x256_S784x256_1_0_0_1_n_n.contr.Idx) :
    (dot_S784x256_S256x256_S784x256_1_0_0_1_n_n.rhsIdx i q 1).val = (i 1).val := by
  unfold DotDims.rhsIdx
  rw [dif_neg (show ¬(1 : Fin S256x256.rank) ∈ dot_S784x256_S256x256_S784x256_1_0_0_1_n_n.rhsBatch by decide), dif_pos (show (1 : Fin S256x256.rank) ∈ dot_S784x256_S256x256_S784x256_1_0_0_1_n_n.rhsNonContracting by decide)]
  rfl

theorem wide_l0 (i : S784x2304.Idx) (q : dot_S784x256_S256x2304_S784x2304_1_0_0_1_n_n.contr.Idx) :
    (dot_S784x256_S256x2304_S784x2304_1_0_0_1_n_n.lhsIdx i q 0).val = (i 0).val := by
  unfold DotDims.lhsIdx
  rw [dif_neg (show ¬(0 : Fin S784x256.rank) ∈ dot_S784x256_S256x2304_S784x2304_1_0_0_1_n_n.lhsBatch by decide), dif_pos (show (0 : Fin S784x256.rank) ∈ dot_S784x256_S256x2304_S784x2304_1_0_0_1_n_n.lhsNonContracting by decide)]
  rfl
theorem wide_l1 (i : S784x2304.Idx) (q : dot_S784x256_S256x2304_S784x2304_1_0_0_1_n_n.contr.Idx) :
    (dot_S784x256_S256x2304_S784x2304_1_0_0_1_n_n.lhsIdx i q 1).val = (q ⟨0, by decide⟩).val :=
  dot_S784x256_S256x2304_S784x2304_1_0_0_1_n_n.lhsIdx_val_of_single rfl i q
theorem wide_r0 (i : S784x2304.Idx) (q : dot_S784x256_S256x2304_S784x2304_1_0_0_1_n_n.contr.Idx) :
    (dot_S784x256_S256x2304_S784x2304_1_0_0_1_n_n.rhsIdx i q 0).val = (q ⟨0, by decide⟩).val :=
  dot_S784x256_S256x2304_S784x2304_1_0_0_1_n_n.rhsIdx_val_of_single rfl i q
theorem wide_r1 (i : S784x2304.Idx) (q : dot_S784x256_S256x2304_S784x2304_1_0_0_1_n_n.contr.Idx) :
    (dot_S784x256_S256x2304_S784x2304_1_0_0_1_n_n.rhsIdx i q 1).val = (i 1).val := by
  unfold DotDims.rhsIdx
  rw [dif_neg (show ¬(1 : Fin S256x2304.rank) ∈ dot_S784x256_S256x2304_S784x2304_1_0_0_1_n_n.rhsBatch by decide), dif_pos (show (1 : Fin S256x2304.rank) ∈ dot_S784x256_S256x2304_S784x2304_1_0_0_1_n_n.rhsNonContracting by decide)]
  rfl

/-- A product of pixel rows with one offset's weight, into zero: the sum over the 256 input channels. -/
theorem mm_apply (p : FVec Ideal S784x256 .bf16) (q : FVec Ideal S256x256 .bf16) (i : Fin 784) (c : Fin 256) :
    mm p q (ix2 i c) = ∑ k : Fin 256, p (ix2 i k) * q (ix2 k c) := by
  unfold mm
  exact Cert.LibPlainMatmul.matmul_zero_apply dot_S784x256_S256x256_S784x256_1_0_0_1_n_n none rfl rfl sq_l0 sq_l1 sq_r0 sq_r1 p q i c

/-- The second layer's product, into zero: the sum over the 256 hidden channels. -/
theorem wide_apply (h : FVec Ideal S784x256 .bf16) (q : FVec Ideal S256x2304 .bf16) (i : Fin 784) (j : Fin 2304) :
    matmul dot_S784x256_S256x2304_S784x2304_1_0_0_1_n_n none h q (constant (F := Ideal) S784x2304 .f32 0x00000000#32) (ix2 i j)
      = ∑ k : Fin 256, h (ix2 i k) * q (ix2 k j) :=
  Cert.LibPlainMatmul.matmul_zero_apply dot_S784x256_S256x2304_S784x2304_1_0_0_1_n_n none rfl rfl wide_l0 wide_l1 wide_r0 wide_r1 h q i j

theorem zero784_apply (j : S784x256.Idx) : zero784 (F := Ideal) j = 0 := by
  unfold zero784
  show Ideal.ofBits .f32 0x00000000#32 = 0
  exact Ideal.ofBits_zero_f32

/-- A bias row broadcast down the 784 pixel rows. -/
theorem bias256_apply (B : FVec Ideal S1x256 .f32) (i : Fin 784) (c : Fin 256) :
    broadcastTo S784x256 B broadcasts_S1x256_S784x256 (ix2 i c) = B (ix2 0 c) := by
  refine broadcastTo_apply B broadcasts_S1x256_S784x256 (ix2 i c) (ix2 0 c) fun a => ?_
  match a with
  | ⟨0, _⟩ => rfl
  | ⟨1, _⟩ => rfl

theorem bias2304_apply (B : FVec Ideal S1x2304 .f32) (i : Fin 784) (j : Fin 2304) :
    broadcastTo S784x2304 B broadcasts_S1x2304_S784x2304 (ix2 i j) = B (ix2 0 j) := by
  refine broadcastTo_apply B broadcasts_S1x2304_S784x2304 (ix2 i j) (ix2 0 j) fun a => ?_
  match a with
  | ⟨0, _⟩ => rfl
  | ⟨1, _⟩ => rfl

/-- The identity shape cast the body applies to the second weight. -/
theorem w2cast_apply (w2 : Vec Ideal S256x2304 .bf16) (k : Fin 256) (j : Fin 2304) :
    shapeCast S256x2304 w2 shapeCasts_S256x2304_S256x2304 (ix2 k j) = w2 (ix2 k j) :=
  shapeCast_apply w2 shapeCasts_S256x2304_S256x2304 (ix2 k j) (ix2 k j) rfl

/-- The fourteen image rows laid out from the 784 pixel rows. -/
theorem layout_apply (v : FVec Ideal S784x256 .f32) (r : Fin 14) (w : Fin 56) (c : Fin 256) :
    shapeCast S1x14x56x256 (shapeCast S14x56x256 v shapeCasts_S784x256_S14x56x256) shapeCasts_S14x56x256_S1x14x56x256 (ix4 0 r w c)
      = v (ix2 (pix r w) c) := by
  refine (shapeCast_apply _ shapeCasts_S14x56x256_S1x14x56x256 (ix4 0 r w c) (ix3 r w c) ?_).trans ?_
  · rw [Shape.rowMajor_val_four, Shape.rowMajor_val_three]
    show (r.val * 56 + w.val) * 256 + c.val = ((0 * 14 + r.val) * 56 + w.val) * 256 + c.val
    omega
  · refine shapeCast_apply v shapeCasts_S784x256_S14x56x256 (ix3 r w c) (ix2 (pix r w) c) ?_
    rw [Shape.rowMajor_val_three, Shape.rowMajor_val_two]
    rfl

end Cert.KernelIdeal.Tile

end
-- ==== Proof.RegionEntry.lean ====
/-
  What the kernel region finds in its seven input arrays, entry by entry, in terms of the arguments.

  The image is moved to channel-last layout and padded with one ring of zeros: entry `(b, i, j, c)` is the padded
  image's `(b, c, i, j)`. The first and third weights `[2304, 256]` are re-read as `[256, 9, 256]`: entry `(c, o, c')`
  is row `c·9 + o`. The second weight's 2304 columns, and the second bias, are permuted from channel-major to
  offset-major: column `o·256 + c` is the argument's column `c·9 + o`. The two other biases become rows. Changes of
  float format are the identity at the ideal values.
-/
import proofs.«163215_j12000138625349_1_alg».proof.Proof.Gen.KernelIdeal.Frame
import proofs.«163215_j12000138625349_1_alg».proof.Proof.Spec
import proofs.«163215_j12000138625349_1_alg».proof.Proof.TilePrims
import Idealize.ShloMosaic.Lib.StableHlo.Run
import Idealize.ShloMosaic.Lib.Pipeline.Value
import Idealize.ShloMosaic.Lib.KernelVsHost
import Idealize.ShloMosaic.Lib.ValueIdx

noncomputable section

namespace Cert.KernelIdeal.RegionEntry

open Idealize.ShloMosaic Idealize.ShloMosaic.ValueIdx Idealize.ShloMosaic.TcCoe Idealize.SL.Sem Idealize.ShloMosaic.StableHlo
open Cert.KernelIdeal Cert.KernelIdeal.Gen Cert.GatedPatch Cert.KernelIdeal.Tile

variable (m : (ℓ : Loc nD τ sig) → Buf (Elt Ideal) ℓ)

/-- The arguments as launched, each at its literal type. -/
abbrev argX (c : Dev nD) : FVec Ideal S8x256x56x56 .f32 := m ((c : Thread nD τ).loc main_arg0)
abbrev argW1 (c : Dev nD) : FVec Ideal S2304x256 .f32 := m ((c : Thread nD τ).loc main_arg1)
abbrev argB1 (c : Dev nD) : FVec Ideal S256 .f32 := m ((c : Thread nD τ).loc main_arg2)
abbrev argW2 (c : Dev nD) : FVec Ideal S256x2304 .f32 := m ((c : Thread nD τ).loc main_arg3)
abbrev argB2 (c : Dev nD) : FVec Ideal S2304 .f32 := m ((c : Thread nD τ).loc main_arg4)
abbrev argW3 (c : Dev nD) : FVec Ideal S2304x256 .f32 := m ((c : Thread nD τ).loc main_arg5)
abbrev argB3 (c : Dev nD) : FVec Ideal S256 .f32 := m ((c : Thread nD τ).loc main_arg6)

/-- The pad's fill value is zero. -/
theorem fill_zero (i : S_.Idx) : sitofp (F := Ideal) .f32 (constantI S_ 32 0#32) i = 0 := by
  show (((0#32 : BitVec 32).toInt : ℝ) : EReal) = 0
  simp

/-- The staged image: channel-last, padded. -/
theorem image_apply (c : Dev nD) (b : Fin 8) (i j : Fin 58) (ch : Fin 256) :
    V (F := Ideal) m c main_v2 (ix4 b i j ch) = padded (argX m c) b ch i j := by
  have e : (V (F := Ideal) m c main_v2 : S8x58x58x256.Idx → EReal)
      = truncf .bf16 (pad S8x58x58x256 ![0, 1, 1, 0] ![0, 1, 1, 0] ![0, 0, 0, 0]
          (transpose S8x56x56x256 [0, 2, 3, 1] (argX m c) transposes_S8x256x56x56_S8x56x56x256_0_2_3_1)
          (sitofp (F := Ideal) .f32 (constantI S_ 32 0#32)) pads_S8x56x56x256_S8x58x58x256_000_110_110_000 h_S_) bitsLt_bf16_f32 := by
    dsimp only [V, V0]
    simp only [hostOps0, hostOps0_1, hostOps0_2, List.flatten_cons, List.flatten_nil, List.append_nil, List.cons_append, List.nil_append]
    after_results
    rfl
  rw [e, truncf_apply]
  unfold padded
  by_cases h : (1 ≤ i.val ∧ i.val ≤ 56) ∧ (1 ≤ j.val ∧ j.val ≤ 56)
  · rw [dif_pos h]
    refine (pad_apply_of_inside ![0, 1, 1, 0] ![0, 1, 1, 0] ![0, 0, 0, 0] _ _ pads_S8x56x56x256_S8x58x58x256_000_110_110_000 h_S_
      (ix4 b i j ch) (ix4 b ⟨i.val - 1, by omega⟩ ⟨j.val - 1, by omega⟩ ch) fun a => ?_).trans ?_
    · match a with
      | ⟨0, _⟩ => show b.val = 0 + b.val * (0 + 1); omega
      | ⟨1, _⟩ => show i.val = 1 + (i.val - 1) * (0 + 1); omega
      | ⟨2, _⟩ => show j.val = 1 + (j.val - 1) * (0 + 1); omega
      | ⟨3, _⟩ => show ch.val = 0 + ch.val * (0 + 1); omega
    · refine transpose_apply [0, 2, 3, 1] (argX m c) transposes_S8x256x56x56_S8x56x56x256_0_2_3_1
        (ix4 b ⟨i.val - 1, by omega⟩ ⟨j.val - 1, by omega⟩ ch) (ix4 b ch ⟨i.val - 1, by omega⟩ ⟨j.val - 1, by omega⟩) fun a => ?_
      match a with
      | ⟨0, _⟩ => rfl
      | ⟨1, _⟩ => rfl
      | ⟨2, _⟩ => rfl
      | ⟨3, _⟩ => rfl
  · rw [dif_neg h]
    by_cases hi : 1 ≤ i.val ∧ i.val ≤ 56
    · have hj : ¬(1 ≤ j.val ∧ j.val ≤ 56) := fun hj => h ⟨hi, hj⟩
      refine (pad_apply_of_not_inside (s := S8x56x56x256) (t := S8x58x58x256) ![0, 1, 1, 0] ![0, 1, 1, 0] ![0, 0, 0, 0] _ _
        pads_S8x56x56x256_S8x58x58x256_000_110_110_000 h_S_ (ix4 b i j ch) (⟨2, by decide⟩ : Fin S8x56x56x256.rank) ?_).trans (fill_zero _)
      show ¬(1 ≤ j.val ∧ (j.val - 1) % (0 + 1) = 0 ∧ (j.val - 1) / (0 + 1) < 56)
      omega
    · refine (pad_apply_of_not_inside (s := S8x56x56x256) (t := S8x58x58x256) ![0, 1, 1, 0] ![0, 1, 1, 0] ![0, 0, 0, 0] _ _
        pads_S8x56x56x256_S8x58x58x256_000_110_110_000 h_S_ (ix4 b i j ch) (⟨1, by decide⟩ : Fin S8x56x56x256.rank) ?_).trans (fill_zero _)
      show ¬(1 ≤ i.val ∧ (i.val - 1) % (0 + 1) = 0 ∧ (i.val - 1) / (0 + 1) < 56)
      omega

/-- The staged first weight: entry `(c0, o, c)` is row `c0·9 + o`. -/
theorem weight1_apply (c : Dev nD) (c0 : Fin 256) (o : Fin 9) (cc : Fin 256) :
    V (F := Ideal) m c main_v4 (ix3 c0 o cc) = argW1 m c (ix2 (flat c0 o) cc) := by
  have e : (V (F := Ideal) m c main_v4 : S256x9x256.Idx → EReal)
      = truncf .bf16 (shapeCast S256x9x256 (argW1 m c) shapeCasts_S2304x256_S256x9x256) bitsLt_bf16_f32 := by
    dsimp only [V, V0]
    simp only [hostOps0, hostOps0_1, hostOps0_2, List.flatten_cons, List.flatten_nil, List.append_nil, List.cons_append, List.nil_append]
    after_results
    rfl
  rw [e, truncf_apply]
  refine shapeCast_apply (argW1 m c) shapeCasts_S2304x256_S256x9x256 (ix3 c0 o cc) (ix2 (flat c0 o) cc) ?_
  rw [Shape.rowMajor_val_three, Shape.rowMajor_val_two]
  rfl

/-- The staged third weight: entry `(c0, o, c)` is row `c0·9 + o`. -/
theorem weight3_apply (c : Dev nD) (c0 : Fin 256) (o : Fin 9) (cc : Fin 256) :
    V (F := Ideal) m c main_v6 (ix3 c0 o cc) = argW3 m c (ix2 (flat c0 o) cc) := by
  have e : (V (F := Ideal) m c main_v6 : S256x9x256.Idx → EReal)
      = truncf .bf16 (shapeCast S256x9x256 (argW3 m c) shapeCasts_S2304x256_S256x9x256) bitsLt_bf16_f32 := by
    dsimp only [V, V0]
    simp only [hostOps0, hostOps0_1, hostOps0_2, List.flatten_cons, List.flatten_nil, List.append_nil, List.cons_append, List.nil_append]
    after_results
    rfl
  rw [e, truncf_apply]
  refine shapeCast_apply (argW3 m c) shapeCasts_S2304x256_S256x9x256 (ix3 c0 o cc) (ix2 (flat c0 o) cc) ?_
  rw [Shape.rowMajor_val_three, Shape.rowMajor_val_two]
  rfl

/-- The staged second weight: column `o·256 + c2` is the argument's column `c2·9 + o`. -/
theorem weight2_apply (c : Dev nD) (k : Fin 256) (o : Fin 9) (c2 : Fin 256) :
    V (F := Ideal) m c main_v10 (ix2 k (col o c2)) = argW2 m c (ix2 k (flat c2 o)) := by
  have e : (V (F := Ideal) m c main_v10 : S256x2304.Idx → EReal)
      = truncf .bf16 (shapeCast S256x2304 (transpose S256x9x256 [0, 2, 1]
          (shapeCast S256x256x9 (argW2 m c) shapeCasts_S256x2304_S256x256x9) transposes_S256x256x9_S256x9x256_0_2_1)
          shapeCasts_S256x9x256_S256x2304) bitsLt_bf16_f32 := by
    dsimp only [V, V0]
    simp only [hostOps0, hostOps0_1, hostOps0_2, List.flatten_cons, List.flatten_nil, List.append_nil, List.cons_append, List.nil_append]
    after_results
    rfl
  rw [e, truncf_apply]
  refine (shapeCast_apply _ shapeCasts_S256x9x256_S256x2304 (ix2 k (col o c2)) (ix3 k o c2) ?_).trans ?_
  · rw [Shape.rowMajor_val_three, Shape.rowMajor_val_two]
    show (k.val * 9 + o.val) * 256 + c2.val = k.val * 2304 + (o.val * 256 + c2.val)
    omega
  refine (transpose_apply [0, 2, 1] _ transposes_S256x256x9_S256x9x256_0_2_1 (ix3 k o c2) (ix3 k c2 o) fun a => ?_).trans ?_
  · match a with
    | ⟨0, _⟩ => rfl
    | ⟨1, _⟩ => rfl
    | ⟨2, _⟩ => rfl
  refine shapeCast_apply (argW2 m c) shapeCasts_S256x2304_S256x256x9 (ix3 k c2 o) (ix2 k (flat c2 o)) ?_
  rw [Shape.rowMajor_val_two, Shape.rowMajor_val_three]
  show k.val * 2304 + (c2.val * 9 + o.val) = (k.val * 256 + c2.val) * 9 + o.val
  omega

/-- The staged second bias: column `o·256 + c2` is the argument's entry `c2·9 + o`. -/
theorem bias2_apply (c : Dev nD) (o : Fin 9) (c2 : Fin 256) :
    V (F := Ideal) m c main_v13 (ix2 0 (col o c2)) = argB2 m c (ix1 (flat c2 o)) := by
  have e : (V (F := Ideal) m c main_v13 : S1x2304.Idx → EReal)
      = shapeCast S1x2304 (transpose S9x256 [1, 0] (shapeCast S256x9 (argB2 m c) shapeCasts_S2304_S256x9) transposes_S256x9_S9x256_1_0)
          shapeCasts_S9x256_S1x2304 := by
    dsimp only [V, V0]
    simp only [hostOps0, hostOps0_1, hostOps0_2, List.flatten_cons, List.flatten_nil, List.append_nil, List.cons_append, List.nil_append]
    after_results
    rfl
  rw [e]
  refine (shapeCast_apply _ shapeCasts_S9x256_S1x2304 (ix2 0 (col o c2)) (ix2 o c2) ?_).trans ?_
  · rw [Shape.rowMajor_val_two, Shape.rowMajor_val_two]
    show o.val * 256 + c2.val = 0 * 2304 + (o.val * 256 + c2.val)
    omega
  refine (transpose_apply [1, 0] _ transposes_S256x9_S9x256_1_0 (ix2 o c2) (ix2 c2 o) fun a => ?_).trans ?_
  · match a with
    | ⟨0, _⟩ => rfl
    | ⟨1, _⟩ => rfl
  refine shapeCast_apply (argB2 m c) shapeCasts_S2304_S256x9 (ix2 c2 o) (ix1 (flat c2 o)) ?_
  rw [Shape.rowMajor_val_one, Shape.rowMajor_val_two]
  rfl

/-- The staged first bias, as a row. -/
theorem bias1_apply (c : Dev nD) (cc : Fin 256) :
    V (F := Ideal) m c main_v14 (ix2 0 cc) = argB1 m c (ix1 cc) := by
  have e : (V (F := Ideal) m c main_v14 : S1x256.Idx → EReal) = shapeCast S1x256 (argB1 m c) shapeCasts_S256_S1x256 := by
    dsimp only [V, V0]
    simp only [hostOps0, hostOps0_1, hostOps0_2, List.flatten_cons, List.flatten_nil, List.append_nil, List.cons_append, List.nil_append]
    after_results
    rfl
  rw [e]
  refine shapeCast_apply (argB1 m c) shapeCasts_S256_S1x256 (ix2 0 cc) (ix1 cc) ?_
  rw [Shape.rowMajor_val_one, Shape.rowMajor_val_two]
  show cc.val = 0 * 256 + cc.val
  omega

/-- The staged third bias, as a row. -/
theorem bias3_apply (c : Dev nD) (cc : Fin 256) :
    V (F := Ideal) m c main_v15 (ix2 0 cc) = argB3 m c (ix1 cc) := by
  have e : (V (F := Ideal) m c main_v15 : S1x256.Idx → EReal) = shapeCast S1x256 (argB3 m c) shapeCasts_S256_S1x256 := by
    dsimp only [V, V0]
    simp only [hostOps0, hostOps0_1, hostOps0_2, List.flatten_cons, List.flatten_nil, List.append_nil, List.cons_append, List.nil_append]
    after_results
    rfl
  rw [e]
  refine shapeCast_apply (argB3 m c) shapeCasts_S256_S1x256 (ix2 0 cc) (ix1 cc) ?_
  rw [Shape.rowMajor_val_one, Shape.rowMajor_val_two]
  show cc.val = 0 * 256 + cc.val
  omega

end Cert.KernelIdeal.RegionEntry

end
-- ==== Proof.TileValue.lean ====
/-
  One tile's output at a pixel and an output channel, at the ideal values, in terms of what its nine image slices and
  its weights hold:

    hidden c = max ((((0 + Σ_k A₀ k · U₀ k c) + Σ_k A₁ k · U₁ k c) + … ) + b1 c) 0
    gate j   = logistic (Σ_c hidden c · w2 c j + b2 j)
    out c'   = (((0 + Σ_k (A₀ k · gate (0·256 + k)) · V₀ k c') + … ) + Σ_k (A₈ k · gate (8·256 + k)) · V₈ k c') + b3 c'

  where `A_o k` is slice `o`'s entry at the pixel and channel `k`. Every step is one of the building blocks read at an
  index; casts between float formats are the identity here.
-/
import proofs.«163215_j12000138625349_1_alg».proof.Proof.TilePrims
import proofs.«163215_j12000138625349_1_alg».proof.Proof.Spec

noncomputable section

open scoped BigOperators

namespace Cert.KernelIdeal.Tile

open Idealize.ShloMosaic Idealize.ShloMosaic.ValueIdx Idealize.SL.Sem Cert.KernelIdeal Cert.KernelIdeal.Gen Cert.GatedPatch

/-- One offset's term of the first layer at a pixel and hidden channel. -/
theorem term1 (a : Vec Ideal S1x14x56x256 .bf16) (uu : Vec Ideal S256x1x256 .bf16) (r : Fin 14) (w : Fin 56) (c : Fin 256) :
    mm (rows a) (wmat uu) (ix2 (pix r w) c) = ∑ k : Fin 256, a (ix4 0 r w k) * uu (ix3 k 0 c) := by
  rw [mm_apply]
  refine Finset.sum_congr rfl fun k _ => ?_
  rw [rows_apply, wmat_apply]

/-- A slice's gated rows at a pixel and channel: the slice's entry times the gate's entry in that offset's columns. -/
theorem gatedRows_apply (a : Vec Ideal S1x14x56x256 .bf16) (s : FVec Ideal S784x2304 .f32) (off : Fin 2 → Nat)
    (hs : S784x2304.Slices off S784x256) (r : Fin 14) (w : Fin 56) (k : Fin 256) (j : Fin 2304)
    (h0 : off 0 = 0) (hj : j.val = off 1 + k.val) :
    gatedRows a s off hs (ix2 (pix r w) k) = a (ix4 0 r w k) * s (ix2 (pix r w) j) := by
  unfold gatedRows
  rw [truncf_apply, mulf_apply, extf_apply, rows_apply]
  congr 1
  refine extractStridedSlice_apply off s hs (ix2 (pix r w) k) (ix2 (pix r w) j) fun b => ?_
  match b with
  | ⟨0, _⟩ => show (pix r w).val = off 0 + (pix r w).val; rw [h0, Nat.zero_add]
  | ⟨1, _⟩ => exact hj

/-- One offset's term of the third layer at a pixel and output channel. -/
theorem term3 (a : Vec Ideal S1x14x56x256 .bf16) (s : FVec Ideal S784x2304 .f32) (off : Fin 2 → Nat)
    (hs : S784x2304.Slices off S784x256) (vv : Vec Ideal S256x1x256 .bf16) (o : Fin 9) (h0 : off 0 = 0) (h1 : off 1 = o.val * 256)
    (r : Fin 14) (w : Fin 56) (c' : Fin 256) :
    mm (gatedRows a s off hs) (wmat vv) (ix2 (pix r w) c')
      = ∑ k : Fin 256, (a (ix4 0 r w k) * s (ix2 (pix r w) (col o k))) * vv (ix3 k 0 c') := by
  rw [mm_apply]
  refine Finset.sum_congr rfl fun k _ => ?_
  rw [wmat_apply, gatedRows_apply a s off hs r w k (col o k) h0 (by show o.val * 256 + k.val = off 1 + k.val; rw [h1])]

section Families
variable (A : Fin 9 → Vec Ideal S1x14x56x256 .bf16) (U V : Fin 9 → Vec Ideal S256x1x256 .bf16)
  (B1 : FVec Ideal S1x256 .f32) (w2 : Vec Ideal S256x2304 .bf16) (B2 : FVec Ideal S1x2304 .f32) (B3 : FVec Ideal S1x256 .f32)

/-- The first layer before its bias, at a pixel and hidden channel. -/
theorem pre1_apply (r : Fin 14) (w : Fin 56) (c : Fin 256) :
    pre1 (A 0) (A 1) (A 2) (A 3) (A 4) (A 5) (A 6) (A 7) (A 8) (U 0) (U 1) (U 2) (U 3) (U 4) (U 5) (U 6) (U 7) (U 8) (ix2 (pix r w) c)
      = add9 fun o => ∑ k : Fin 256, A o (ix4 0 r w k) * U o (ix3 k 0 c) := by
  unfold pre1
  simp only [addf_apply]
  rw [zero784_apply, term1, term1, term1, term1, term1, term1, term1, term1, term1]
  rfl

/-- The rectified first layer at a pixel and hidden channel. -/
def hidAt (r : Fin 14) (w : Fin 56) (c : Fin 256) : EReal :=
  max ((add9 fun o => ∑ k : Fin 256, A o (ix4 0 r w k) * U o (ix3 k 0 c)) + B1 (ix2 0 c)) 0

theorem hid_apply (r : Fin 14) (w : Fin 56) (c : Fin 256) :
    hid (pre1 (A 0) (A 1) (A 2) (A 3) (A 4) (A 5) (A 6) (A 7) (A 8) (U 0) (U 1) (U 2) (U 3) (U 4) (U 5) (U 6) (U 7) (U 8)) B1 (ix2 (pix r w) c)
      = hidAt A U B1 r w c := by
  unfold hid hidAt
  rw [truncf_apply, maximumf_apply, addf_apply, zero784_apply, bias256_apply, pre1_apply]

/-- The gate at a pixel and one of its 2304 columns. -/
def gateAt (r : Fin 14) (w : Fin 56) (j : Fin 2304) : EReal :=
  Ideal.logistic ((∑ c : Fin 256, hidAt A U B1 r w c * w2 (ix2 c j)) + B2 (ix2 0 j))

theorem gates_apply (r : Fin 14) (w : Fin 56) (j : Fin 2304) :
    gates (hid (pre1 (A 0) (A 1) (A 2) (A 3) (A 4) (A 5) (A 6) (A 7) (A 8) (U 0) (U 1) (U 2) (U 3) (U 4) (U 5) (U 6) (U 7) (U 8)) B1) w2 B2
        (ix2 (pix r w) j)
      = gateAt A U B1 w2 B2 r w j := by
  unfold gates gateAt
  show Ideal.logistic (_ + _) = _
  rw [wide_apply, bias2304_apply]
  congr 2
  refine Finset.sum_congr rfl fun c _ => ?_
  rw [hid_apply, w2cast_apply]

/-- The tile's output at a pixel and an output channel. -/
theorem tile_apply (r : Fin 14) (w : Fin 56) (c' : Fin 256) :
    tile (A 0) (A 1) (A 2) (A 3) (A 4) (A 5) (A 6) (A 7) (A 8) (U 0) (U 1) (U 2) (U 3) (U 4) (U 5) (U 6) (U 7) (U 8) B1 w2 B2
        (V 0) (V 1) (V 2) (V 3) (V 4) (V 5) (V 6) (V 7) (V 8) B3 (ix4 0 r w c')
      = (add9 fun o => ∑ k : Fin 256, (A o (ix4 0 r w k) * gateAt A U B1 w2 B2 r w (col o k)) * V o (ix3 k 0 c')) + B3 (ix2 0 c') := by
  unfold tile
  rw [layout_apply, addf_apply, bias256_apply]
  congr 1
  unfold pre3
  simp only [addf_apply]
  rw [zero784_apply,
    term3 (A 0) _ _ _ (V 0) 0 rfl rfl, term3 (A 1) _ _ _ (V 1) 1 rfl rfl, term3 (A 2) _ _ _ (V 2) 2 rfl rfl,
    term3 (A 3) _ _ _ (V 3) 3 rfl rfl, term3 (A 4) _ _ _ (V 4) 4 rfl rfl, term3 (A 5) _ _ _ (V 5) 5 rfl rfl,
    term3 (A 6) _ _ _ (V 6) 6 rfl rfl, term3 (A 7) _ _ _ (V 7) 7 rfl rfl, term3 (A 8) _ _ _ (V 8) 8 rfl rfl]
  simp only [gates_apply]
  rfl

end Families

end Cert.KernelIdeal.Tile

end
-- ==== Proof.TileSpec.lean ====
/-
  A tile against the specification. Suppose, at a pixel `(r, w)` of the tile that is pixel `(R, w)` of image `b`:
  slice `o` holds the patch entries of offset `o`; the first and third weights' slice `o` hold rows `k·9 + o`; the
  second weight's and bias's column `o·256 + c` hold the arguments' column `c·9 + o`; the bias rows hold the biases.
  Then the tile's output there is the specified output: the tile adds the nine offsets' channel sums left to right,
  which is the sum over the flat coordinate.
-/
import proofs.«163215_j12000138625349_1_alg».proof.Proof.TileValue

noncomputable section

open scoped BigOperators

namespace Cert.KernelIdeal.Tile

open Idealize.ShloMosaic Idealize.ShloMosaic.ValueIdx Idealize.SL.Sem Cert.KernelIdeal Cert.KernelIdeal.Gen Cert.GatedPatch

section Bridge
variable (A : Fin 9 → Vec Ideal S1x14x56x256 .bf16) (U V : Fin 9 → Vec Ideal S256x1x256 .bf16)
  (B1 : FVec Ideal S1x256 .f32) (w2 : Vec Ideal S256x2304 .bf16) (B2 : FVec Ideal S1x2304 .f32) (B3 : FVec Ideal S1x256 .f32)
  (x : FVec Ideal ⟨4, ![8, 256, 56, 56]⟩ .f32) (W1 : FVec Ideal ⟨2, ![2304, 256]⟩ .f32) (b1 : FVec Ideal ⟨1, ![256]⟩ .f32)
  (W2 : FVec Ideal ⟨2, ![256, 2304]⟩ .f32) (b2 : FVec Ideal ⟨1, ![2304]⟩ .f32) (W3 : FVec Ideal ⟨2, ![2304, 256]⟩ .f32)
  (b3 : FVec Ideal ⟨1, ![256]⟩ .f32)
  (b : Fin 8) (R : Fin 56) (r : Fin 14) (w : Fin 56)
  (hA : ∀ (o : Fin 9) (k : Fin 256), A o (ix4 0 r w k) = patch x b R w k o)
  (hU : ∀ (o : Fin 9) (k c : Fin 256), U o (ix3 k 0 c) = W1 (ix2 (flat k o) c))
  (hV : ∀ (o : Fin 9) (k c : Fin 256), V o (ix3 k 0 c) = W3 (ix2 (flat k o) c))
  (hB1 : ∀ c : Fin 256, B1 (ix2 0 c) = b1 (ix1 c))
  (hB3 : ∀ c : Fin 256, B3 (ix2 0 c) = b3 (ix1 c))
  (hw2 : ∀ (k : Fin 256) (o : Fin 9) (c2 : Fin 256), w2 (ix2 k (col o c2)) = W2 (ix2 k (flat c2 o)))
  (hB2 : ∀ (o : Fin 9) (c2 : Fin 256), B2 (ix2 0 (col o c2)) = b2 (ix1 (flat c2 o)))

include hA hU hB1 in
theorem hidAt_eq (c : Fin 256) : hidAt A U B1 r w c = hidden x W1 b1 b R w c := by
  rw [hidden_offsets]
  unfold hidAt
  simp only [hA, hU, hB1]

include hA hU hB1 hw2 hB2 in
theorem gateAt_eq (o : Fin 9) (k : Fin 256) :
    gateAt A U B1 w2 B2 r w (col o k) = gate x W1 b1 W2 b2 b R w (flat k o) := by
  unfold gateAt gate
  rw [hB2]
  congr 2
  refine Finset.sum_congr rfl fun c _ => ?_
  rw [hidAt_eq A U B1 x W1 b1 b R r w hA hU hB1 c, hw2]

include hA hU hV hB1 hB3 hw2 hB2 in
/-- The tile's output at the pixel is the specified output. -/
theorem tile_eq_outAt (c' : Fin 256) :
    tile (A 0) (A 1) (A 2) (A 3) (A 4) (A 5) (A 6) (A 7) (A 8) (U 0) (U 1) (U 2) (U 3) (U 4) (U 5) (U 6) (U 7) (U 8) B1 w2 B2
        (V 0) (V 1) (V 2) (V 3) (V 4) (V 5) (V 6) (V 7) (V 8) B3 (ix4 0 r w c')
      = outAt x W1 b1 W2 b2 W3 b3 b R w c' := by
  rw [tile_apply, outAt_offsets, hB3]
  congr 2
  funext o
  refine Finset.sum_congr rfl fun k _ => ?_
  rw [hA, hV, gateAt_eq A U B1 w2 B2 x W1 b1 W2 b2 b R r w hA hU hB1 hw2 hB2 o k]

end Bridge

/-- The same with the nine slices of each kind written out, for a tile whose slices are given one by one. -/
theorem tile_eq_outAt_slices
    (a0 a1 a2 a3 a4 a5 a6 a7 a8 : Vec Ideal S1x14x56x256 .bf16) (u0 u1 u2 u3 u4 u5 u6 u7 u8 : Vec Ideal S256x1x256 .bf16)
    (B1 : FVec Ideal S1x256 .f32) (w2 : Vec Ideal S256x2304 .bf16) (B2 : FVec Ideal S1x2304 .f32)
    (v0 v1 v2 v3 v4 v5 v6 v7 v8 : Vec Ideal S256x1x256 .bf16) (B3 : FVec Ideal S1x256 .f32)
    (x : FVec Ideal ⟨4, ![8, 256, 56, 56]⟩ .f32) (W1 : FVec Ideal ⟨2, ![2304, 256]⟩ .f32) (b1 : FVec Ideal ⟨1, ![256]⟩ .f32)
    (W2 : FVec Ideal ⟨2, ![256, 2304]⟩ .f32) (b2 : FVec Ideal ⟨1, ![2304]⟩ .f32) (W3 : FVec Ideal ⟨2, ![2304, 256]⟩ .f32)
    (b3 : FVec Ideal ⟨1, ![256]⟩ .f32)
    (b : Fin 8) (R : Fin 56) (r : Fin 14) (w : Fin 56)
    (hA : ∀ (o : Fin 9) (k : Fin 256), (![a0, a1, a2, a3, a4, a5, a6, a7, a8] : Fin 9 → Vec Ideal S1x14x56x256 .bf16) o (ix4 0 r w k) = patch x b R w k o)
    (hU : ∀ (o : Fin 9) (k c : Fin 256), (![u0, u1, u2, u3, u4, u5, u6, u7, u8] : Fin 9 → Vec Ideal S256x1x256 .bf16) o (ix3 k 0 c) = W1 (ix2 (flat k o) c))
    (hV : ∀ (o : Fin 9) (k c : Fin 256), (![v0, v1, v2, v3, v4, v5, v6, v7, v8] : Fin 9 → Vec Ideal S256x1x256 .bf16) o (ix3 k 0 c) = W3 (ix2 (flat k o) c))
    (hB1 : ∀ c : Fin 256, B1 (ix2 0 c) = b1 (ix1 c))
    (hB3 : ∀ c : Fin 256, B3 (ix2 0 c) = b3 (ix1 c))
    (hw2 : ∀ (k : Fin 256) (o : Fin 9) (c2 : Fin 256), w2 (ix2 k (col o c2)) = W2 (ix2 k (flat c2 o)))
    (hB2 : ∀ (o : Fin 9) (c2 : Fin 256), B2 (ix2 0 (col o c2)) = b2 (ix1 (flat c2 o)))
    (c' : Fin 256) :
    tile a0 a1 a2 a3 a4 a5 a6 a7 a8 u0 u1 u2 u3 u4 u5 u6 u7 u8 B1 w2 B2 v0 v1 v2 v3 v4 v5 v6 v7 v8 B3 (ix4 0 r w c')
      = outAt x W1 b1 W2 b2 W3 b3 b R w c' :=
  tile_eq_outAt ![a0, a1, a2, a3, a4, a5, a6, a7, a8] ![u0, u1, u2, u3, u4, u5, u6, u7, u8] ![v0, v1, v2, v3, v4, v5, v6, v7, v8]
    B1 w2 B2 B3 x W1 b1 W2 b2 W3 b3 b R r w hA hU hV hB1 hB3 hw2 hB2 c'

end Cert.KernelIdeal.Tile

end
-- ==== Proof.BlockReads.lean ====
/-
  What the kernel body's loads read at grid point `t` (image `t` of the batch), in terms of the arguments.

  The image window's block at point `t` is image `t`'s whole padded plane stack; the other windows' blocks are their
  whole arrays at every point. A load through a unit-stride rectangle reads the array at the rectangle's offset plus the
  index, so a slice of fourteen rows starting at row `a`, column `kj`, read at pixel `(r, w)` and channel `k`, is the
  padded image at `(a + r, kj + w)`: the patch entry of pixel `(R, w)` at offset `o` when `a + r = R + o / 3` and
  `kj = o % 3`.
-/
import proofs.«163215_j12000138625349_1_alg».proof.Proof.RegionEntry
import proofs.«163215_j12000138625349_1_alg».proof.Proof.TileSpec

noncomputable section

namespace Cert.KernelIdeal.BlockReads

open Idealize.ShloMosaic Idealize.ShloMosaic.ValueIdx Idealize.ShloMosaic.TcCoe Idealize.SL.Sem
open Cert.KernelIdeal Cert.KernelIdeal.Gen Cert.GatedPatch Cert.KernelIdeal.Tile Cert.KernelIdeal.RegionEntry

variable (m : (ℓ : Loc nD τ sig) → Buf (Elt Ideal) ℓ)

/-- The printed index maps over the grid: the image and the output move with the point along the batch axis; every
    other window stays at its array's one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

/-- The image a grid point works on. -/
def batch (t : Fin cfg0.N) : Fin 8 := ⟨t.val, by have h : t.val < grid0.N := t.isLt; rw [N_0] at h; exact h⟩

/-- A slice of the image window's block, read at a pixel and a channel: a patch entry. -/
theorem image_slice (c : Dev nD) (t : Fin cfg0.N) (off : Fin 4 → Nat) (inb : ∀ a, off a + S1x14x56x256.size a ≤ S1x58x58x256.size a)
    (R : Fin 56) (r : Fin 14) (w : Fin 56) (k : Fin 256) (o : Fin 9)
    (h0 : off 0 = 0) (h1 : off 1 + r.val = R.val + o.val / 3) (h2 : off 2 = o.val % 3) (h3 : off 3 = 0) :
    View.ld (iblk (F := Ideal) m c 0 t) (Rect.unit (s := S1x58x58x256) off S1x14x56x256.size inb) (ix4 0 r w k)
      = patch (argX m c) (batch t) R w k o := by
  obtain ⟨e0, e1, e2, e3, -⟩ := idx_facts t
  show V (F := Ideal) m c main_v2
    (((cfg0.win 0).blk t).view.emb ((Rect.unit (s := S1x58x58x256) off S1x14x56x256.size inb).emb (ix4 0 r w k))) = _
  have e : ((cfg0.win 0).blk t).view.emb ((Rect.unit (s := S1x58x58x256) off S1x14x56x256.size inb).emb (ix4 0 r w k))
      = ix4 (batch t) ⟨R.val + o.val / 3, by omega⟩ ⟨w.val + o.val % 3, by omega⟩ k := funext fun a => Fin.ext (by
    match a with
    | ⟨0, _⟩ => show win0_0.index t (0 : Fin 4) * 1 + 1 * (off 0 + 1 * 0) = t.val; omega
    | ⟨1, _⟩ => show win0_0.index t (1 : Fin 4) * 58 + 1 * (off 1 + 1 * r.val) = R.val + o.val / 3; omega
    | ⟨2, _⟩ => show win0_0.index t (2 : Fin 4) * 58 + 1 * (off 2 + 1 * w.val) = w.val + o.val % 3; omega
    | ⟨3, _⟩ => show win0_0.index t (3 : Fin 4) * 256 + 1 * (off 3 + 1 * k.val) = k.val; omega)
  rw [e, image_apply]
  rfl

/-- A slice of the first weight's block: rows `k·9 + o`. -/
theorem weight1_slice (c : Dev nD) (t : Fin cfg0.N) (off : Fin 3 → Nat) (inb : ∀ a, off a + S256x1x256.size a ≤ S256x9x256.size a)
    (o : Fin 9) (h0 : off 0 = 0) (h1 : off 1 = o.val) (h2 : off 2 = 0) (k cc : Fin 256) :
    View.ld (iblk (F := Ideal) m c 1 t) (Rect.unit (s := S256x9x256) off S256x1x256.size inb) (ix3 k 0 cc)
      = argW1 m c (ix2 (flat k o) cc) := by
  obtain ⟨-, -, -, -, e0, e1, e2, -⟩ := idx_facts t
  show V (F := Ideal) m c main_v4
    (((cfg0.win 1).blk t).view.emb ((Rect.unit (s := S256x9x256) off S256x1x256.size inb).emb (ix3 k 0 cc))) = _
  have e : ((cfg0.win 1).blk t).view.emb ((Rect.unit (s := S256x9x256) off S256x1x256.size inb).emb (ix3 k 0 cc))
      = ix3 k o cc := funext fun a => Fin.ext (by
    match a with
    | ⟨0, _⟩ => show win0_1.index t (0 : Fin 3) * 256 + 1 * (off 0 + 1 * k.val) = k.val; omega
    | ⟨1, _⟩ => show win0_1.index t (1 : Fin 3) * 9 + 1 * (off 1 + 1 * 0) = o.val; omega
    | ⟨2, _⟩ => show win0_1.index t (2 : Fin 3) * 256 + 1 * (off 2 + 1 * cc.val) = cc.val; omega)
  rw [e, weight1_apply]

/-- A slice of the third weight's block: rows `k·9 + o`. -/
theorem weight3_slice (c : Dev nD) (t : Fin cfg0.N) (off : Fin 3 → Nat) (inb : ∀ a, off a + S256x1x256.size a ≤ S256x9x256.size a)
    (o : Fin 9) (h0 : off 0 = 0) (h1 : off 1 = o.val) (h2 : off 2 = 0) (k cc : Fin 256) :
    View.ld (iblk (F := Ideal) m c 5 t) (Rect.unit (s := S256x9x256) off S256x1x256.size inb) (ix3 k 0 cc)
      = argW3 m c (ix2 (flat k o) cc) := by
  obtain ⟨-, -, -, -, -, -, -, -, -, -, -, -, -, e0, e1, e2, -⟩ := idx_facts t
  show V (F := Ideal) m c main_v6
    (((cfg0.win 5).blk t).view.emb ((Rect.unit (s := S256x9x256) off S256x1x256.size inb).emb (ix3 k 0 cc))) = _
  have e : ((cfg0.win 5).blk t).view.emb ((Rect.unit (s := S256x9x256) off S256x1x256.size inb).emb (ix3 k 0 cc))
      = ix3 k o cc := funext fun a => Fin.ext (by
    match a with
    | ⟨0, _⟩ => show win0_5.index t (0 : Fin 3) * 256 + 1 * (off 0 + 1 * k.val) = k.val; omega
    | ⟨1, _⟩ => show win0_5.index t (1 : Fin 3) * 9 + 1 * (off 1 + 1 * 0) = o.val; omega
    | ⟨2, _⟩ => show win0_5.index t (2 : Fin 3) * 256 + 1 * (off 2 + 1 * cc.val) = cc.val; omega)
  rw [e, weight3_apply]

/-- The second weight's block, whole: column `o·256 + c2` is the argument's column `c2·9 + o`. -/
theorem weight2_read (c : Dev nD) (t : Fin cfg0.N) (k : Fin 256) (o : Fin 9) (c2 : Fin 256) :
    View.ld (iblk (F := Ideal) m c 3 t) r0_20 (ix2 k (col o c2)) = argW2 m c (ix2 k (flat c2 o)) := by
  obtain ⟨-, -, -, -, -, -, -, -, -, e0, e1, -⟩ := idx_facts t
  show V (F := Ideal) m c main_v10 (((cfg0.win 3).blk t).view.emb (r0_20.emb (ix2 k (col o c2)))) = _
  have e : ((cfg0.win 3).blk t).view.emb (r0_20.emb (ix2 k (col o c2))) = ix2 k (col o c2) := funext fun a => Fin.ext (by
    match a with
    | ⟨0, _⟩ => show win0_3.index t (0 : Fin 2) * 256 + 1 * (0 + 1 * k.val) = k.val; omega
    | ⟨1, _⟩ => show win0_3.index t (1 : Fin 2) * 2304 + 1 * (0 + 1 * (col o c2).val) = (col o c2).val; omega)
  rw [e, weight2_apply]

/-- The second bias's row: column `o·256 + c2` is the argument's entry `c2·9 + o`. -/
theorem bias2_read (c : Dev nD) (t : Fin cfg0.N) (o : Fin 9) (c2 : Fin 256) :
    k0_pay3 (View.ld (iblk (F := Ideal) m c 4 t) r0_1) (ix2 0 (col o c2)) = argB2 m c (ix1 (flat c2 o)) := by
  obtain ⟨-, -, -, -, -, -, -, -, -, -, -, e0, e1, -⟩ := idx_facts t
  unfold k0_pay3
  refine (shapeCast_apply _ shapeCasts_S1x2304_S1x2304 (ix2 0 (col o c2)) (ix2 0 (col o c2)) rfl).trans ?_
  show V (F := Ideal) m c main_v13 (((cfg0.win 4).blk t).view.emb (r0_1.emb (ix2 0 (col o c2)))) = _
  have e : ((cfg0.win 4).blk t).view.emb (r0_1.emb (ix2 (0 : Fin 1) (col o c2))) = ix2 0 (col o c2) := funext fun a => Fin.ext (by
    match a with
    | ⟨0, _⟩ => show win0_4.index t (0 : Fin 2) * 1 + 1 * (0 + 1 * 0) = 0; omega
    | ⟨1, _⟩ => show win0_4.index t (1 : Fin 2) * 2304 + 1 * (0 + 1 * (col o c2).val) = (col o c2).val; omega)
  rw [e, bias2_apply]

/-- The first bias's row. -/
theorem bias1_read (c : Dev nD) (t : Fin cfg0.N) (cc : Fin 256) :
    k0_pay2 (View.ld (iblk (F := Ideal) m c 2 t) r0_0) (ix2 0 cc) = argB1 m c (ix1 cc) := by
  obtain ⟨-, -, -, -, -, -, -, e0, e1, -⟩ := idx_facts t
  unfold k0_pay2
  refine (shapeCast_apply _ shapeCasts_S1x256_S1x256 (ix2 0 cc) (ix2 0 cc) rfl).trans ?_
  show V (F := Ideal) m c main_v14 (((cfg0.win 2).blk t).view.emb (r0_0.emb (ix2 0 cc))) = _
  have e : ((cfg0.win 2).blk t).view.emb (r0_0.emb (ix2 (0 : Fin 1) cc)) = ix2 0 cc := funext fun a => Fin.ext (by
    match a with
    | ⟨0, _⟩ => show win0_2.index t (0 : Fin 2) * 1 + 1 * (0 + 1 * 0) = 0; omega
    | ⟨1, _⟩ => show win0_2.index t (1 : Fin 2) * 256 + 1 * (0 + 1 * cc.val) = cc.val; omega)
  rw [e, bias1_apply]

/-- The third bias's row. -/
theorem bias3_read (c : Dev nD) (t : Fin cfg0.N) (cc : Fin 256) :
    k0_pay4 (View.ld (iblk (F := Ideal) m c 6 t) r0_0) (ix2 0 cc) = argB3 m c (ix1 cc) := by
  obtain ⟨-, -, -, -, -, -, -, -, -, -, -, -, -, -, -, -, e0, e1, -⟩ := idx_facts t
  unfold k0_pay4
  refine (shapeCast_apply _ shapeCasts_S1x256_S1x256 (ix2 0 cc) (ix2 0 cc) rfl).trans ?_
  show V (F := Ideal) m c main_v15 (((cfg0.win 6).blk t).view.emb (r0_0.emb (ix2 0 cc))) = _
  have e : ((cfg0.win 6).blk t).view.emb (r0_0.emb (ix2 (0 : Fin 1) cc)) = ix2 0 cc := funext fun a => Fin.ext (by
    match a with
    | ⟨0, _⟩ => show win0_6.index t (0 : Fin 2) * 1 + 1 * (0 + 1 * 0) = 0; omega
    | ⟨1, _⟩ => show win0_6.index t (1 : Fin 2) * 256 + 1 * (0 + 1 * cc.val) = cc.val; omega)
  rw [e, bias3_apply]

end Cert.KernelIdeal.BlockReads

end
-- ==== Proof.KernelValue.lean ====
/-
  The kernel's result array as one function of the arguments.

  At grid point `t` the body stores four tiles of fourteen rows into the output block of image `t`. Tile `T` reads, for
  offset `o = 3·ki + kj`, the slice of the padded image starting at row `14·T + ki` and column `kj`; at its pixel
  `(r, w)` that is the patch of image pixel `(14·T + r, w)`. So each stored piece is its fourteen rows of ONE function
  of the block's index — the specified output of image `t` —, the four pieces tile the block, the eight points' blocks
  tile the array `[8, 56, 56, 256]`, and the reshape after the region merges rows and columns into `[8, 3136, 256]`.
-/
import proofs.«163215_j12000138625349_1_alg».proof.Proof.BlockReads
import Idealize.ShloMosaic.Lib.StableHlo.Run

noncomputable section

namespace Cert.KernelIdeal.KernelValue

open Idealize.ShloMosaic Idealize.ShloMosaic.ValueIdx Idealize.ShloMosaic.TcCoe Idealize.SL.Sem Idealize.ShloMosaic.StableHlo
open Cert.KernelIdeal Cert.KernelIdeal.Gen Cert.GatedPatch Cert.KernelIdeal.Tile Cert.KernelIdeal.RegionEntry Cert.KernelIdeal.BlockReads

variable (m : (ℓ : Loc nD τ sig) → Buf (Elt Ideal) ℓ) (ρ : Dev nD → PrngReg)

/-! ## The slices a tile reads -/

/-- The nine slices of the first weight. -/
def w1Fam (c : Dev nD) (t : Fin cfg0.N) : Fin 9 → Vec Ideal S256x1x256 .bf16 :=
  ![View.ld (iblk (F := Ideal) m c 1 t) r0_3, View.ld (iblk (F := Ideal) m c 1 t) r0_5, View.ld (iblk (F := Ideal) m c 1 t) r0_7,
    View.ld (iblk (F := Ideal) m c 1 t) r0_9, View.ld (iblk (F := Ideal) m c 1 t) r0_11, View.ld (iblk (F := Ideal) m c 1 t) r0_13,
    View.ld (iblk (F := Ideal) m c 1 t) r0_15, View.ld (iblk (F := Ideal) m c 1 t) r0_17, View.ld (iblk (F := Ideal) m c 1 t) r0_19]

theorem w1Fam_apply (c : Dev nD) (t : Fin cfg0.N) (o : Fin 9) (k cc : Fin 256) :
    w1Fam m c t o (ix3 k 0 cc) = argW1 m c (ix2 (flat k o) cc) := by
  match o with
  | ⟨0, _⟩ => exact weight1_slice m c t ![0, 0, 0] inb_S256x9x256_S256x1x256_0_0_0 0 rfl rfl rfl k cc
  | ⟨1, _⟩ => exact weight1_slice m c t ![0, 1, 0] inb_S256x9x256_S256x1x256_0_1_0 1 rfl rfl rfl k cc
  | ⟨2, _⟩ => exact weight1_slice m c t ![0, 2, 0] inb_S256x9x256_S256x1x256_0_2_0 2 rfl rfl rfl k cc
  | ⟨3, _⟩ => exact weight1_slice m c t ![0, 3, 0] inb_S256x9x256_S256x1x256_0_3_0 3 rfl rfl rfl k cc
  | ⟨4, _⟩ => exact weight1_slice m c t ![0, 4, 0] inb_S256x9x256_S256x1x256_0_4_0 4 rfl rfl rfl k cc
  | ⟨5, _⟩ => exact weight1_slice m c t ![0, 5, 0] inb_S256x9x256_S256x1x256_0_5_0 5 rfl rfl rfl k cc
  | ⟨6, _⟩ => exact weight1_slice m c t ![0, 6, 0] inb_S256x9x256_S256x1x256_0_6_0 6 rfl rfl rfl k cc
  | ⟨7, _⟩ => exact weight1_slice m c t ![0, 7, 0] inb_S256x9x256_S256x1x256_0_7_0 7 rfl rfl rfl k cc
  | ⟨8, _⟩ => exact weight1_slice m c t ![0, 8, 0] inb_S256x9x256_S256x1x256_0_8_0 8 rfl rfl rfl k cc
  | ⟨n + 9, hn⟩ => exact absurd hn (by omega)

/-- The nine slices of the third weight. -/
def w3Fam (c : Dev nD) (t : Fin cfg0.N) : Fin 9 → Vec Ideal S256x1x256 .bf16 :=
  ![View.ld (iblk (F := Ideal) m c 5 t) r0_3, View.ld (iblk (F := Ideal) m c 5 t) r0_5, View.ld (iblk (F := Ideal) m c 5 t) r0_7,
    View.ld (iblk (F := Ideal) m c 5 t) r0_9, View.ld (iblk (F := Ideal) m c 5 t) r0_11, View.ld (iblk (F := Ideal) m c 5 t) r0_13,
    View.ld (iblk (F := Ideal) m c 5 t) r0_15, View.ld (iblk (F := Ideal) m c 5 t) r0_17, View.ld (iblk (F := Ideal) m c 5 t) r0_19]

theorem w3Fam_apply (c : Dev nD) (t : Fin cfg0.N) (o : Fin 9) (k cc : Fin 256) :
    w3Fam m c t o (ix3 k 0 cc) = argW3 m c (ix2 (flat k o) cc) := by
  match o with
  | ⟨0, _⟩ => exact weight3_slice m c t ![0, 0, 0] inb_S256x9x256_S256x1x256_0_0_0 0 rfl rfl rfl k cc
  | ⟨1, _⟩ => exact weight3_slice m c t ![0, 1, 0] inb_S256x9x256_S256x1x256_0_1_0 1 rfl rfl rfl k cc
  | ⟨2, _⟩ => exact weight3_slice m c t ![0, 2, 0] inb_S256x9x256_S256x1x256_0_2_0 2 rfl rfl rfl k cc
  | ⟨3, _⟩ => exact weight3_slice m c t ![0, 3, 0] inb_S256x9x256_S256x1x256_0_3_0 3 rfl rfl rfl k cc
  | ⟨4, _⟩ => exact weight3_slice m c t ![0, 4, 0] inb_S256x9x256_S256x1x256_0_4_0 4 rfl rfl rfl k cc
  | ⟨5, _⟩ => exact weight3_slice m c t ![0, 5, 0] inb_S256x9x256_S256x1x256_0_5_0 5 rfl rfl rfl k cc
  | ⟨6, _⟩ => exact weight3_slice m c t ![0, 6, 0] inb_S256x9x256_S256x1x256_0_6_0 6 rfl rfl rfl k cc
  | ⟨7, _⟩ => exact weight3_slice m c t ![0, 7, 0] inb_S256x9x256_S256x1x256_0_7_0 7 rfl rfl rfl k cc
  | ⟨8, _⟩ => exact weight3_slice m c t ![0, 8, 0] inb_S256x9x256_S256x1x256_0_8_0 8 rfl rfl rfl k cc
  | ⟨n + 9, hn⟩ => exact absurd hn (by omega)

/-- Tile 0 (image rows 0 to 13): its nine image slices. -/
def imgFam0 (c : Dev nD) (t : Fin cfg0.N) : Fin 9 → Vec Ideal S1x14x56x256 .bf16 :=
  ![View.ld (iblk (F := Ideal) m c 0 t) r0_2, View.ld (iblk (F := Ideal) m c 0 t) r0_4, View.ld (iblk (F := Ideal) m c 0 t) r0_6,
    View.ld (iblk (F := Ideal) m c 0 t) r0_8, View.ld (iblk (F := Ideal) m c 0 t) r0_10, View.ld (iblk (F := Ideal) m c 0 t) r0_12,
    View.ld (iblk (F := Ideal) m c 0 t) r0_14, View.ld (iblk (F := Ideal) m c 0 t) r0_16, View.ld (iblk (F := Ideal) m c 0 t) r0_18]

theorem imgFam0_apply (c : Dev nD) (t : Fin cfg0.N) (r : Fin 14) (w : Fin 56) (o : Fin 9) (k : Fin 256) :
    imgFam0 m c t o (ix4 0 r w k) = patch (argX m c) (batch t) ⟨0 + r.val, by omega⟩ w k o := by
  match o with
  | ⟨0, _⟩ => exact image_slice m c t ![0, 0, 0, 0] inb_S1x58x58x256_S1x14x56x256_0_0_0_0 ⟨0 + r.val, by omega⟩ r w k 0 rfl (by show 0 + r.val = 0 + r.val + 0 / 3; omega) rfl rfl
  | ⟨1, _⟩ => exact image_slice m c t ![0, 0, 1, 0] inb_S1x58x58x256_S1x14x56x256_0_0_1_0 ⟨0 + r.val, by omega⟩ r w k 1 rfl (by show 0 + r.val = 0 + r.val + 1 / 3; omega) rfl rfl
  | ⟨2, _⟩ => exact image_slice m c t ![0, 0, 2, 0] inb_S1x58x58x256_S1x14x56x256_0_0_2_0 ⟨0 + r.val, by omega⟩ r w k 2 rfl (by show 0 + r.val = 0 + r.val + 2 / 3; omega) rfl rfl
  | ⟨3, _⟩ => exact image_slice m c t ![0, 1, 0, 0] inb_S1x58x58x256_S1x14x56x256_0_1_0_0 ⟨0 + r.val, by omega⟩ r w k 3 rfl (by show 1 + r.val = 0 + r.val + 3 / 3; omega) rfl rfl
  | ⟨4, _⟩ => exact image_slice m c t ![0, 1, 1, 0] inb_S1x58x58x256_S1x14x56x256_0_1_1_0 ⟨0 + r.val, by omega⟩ r w k 4 rfl (by show 1 + r.val = 0 + r.val + 4 / 3; omega) rfl rfl
  | ⟨5, _⟩ => exact image_slice m c t ![0, 1, 2, 0] inb_S1x58x58x256_S1x14x56x256_0_1_2_0 ⟨0 + r.val, by omega⟩ r w k 5 rfl (by show 1 + r.val = 0 + r.val + 5 / 3; omega) rfl rfl
  | ⟨6, _⟩ => exact image_slice m c t ![0, 2, 0, 0] inb_S1x58x58x256_S1x14x56x256_0_2_0_0 ⟨0 + r.val, by omega⟩ r w k 6 rfl (by show 2 + r.val = 0 + r.val + 6 / 3; omega) rfl rfl
  | ⟨7, _⟩ => exact image_slice m c t ![0, 2, 1, 0] inb_S1x58x58x256_S1x14x56x256_0_2_1_0 ⟨0 + r.val, by omega⟩ r w k 7 rfl (by show 2 + r.val = 0 + r.val + 7 / 3; omega) rfl rfl
  | ⟨8, _⟩ => exact image_slice m c t ![0, 2, 2, 0] inb_S1x58x58x256_S1x14x56x256_0_2_2_0 ⟨0 + r.val, by omega⟩ r w k 8 rfl (by show 2 + r.val = 0 + r.val + 8 / 3; omega) rfl rfl
  | ⟨n + 9, hn⟩ => exact absurd hn (by omega)

/-- Tile 1 (image rows 14 to 27): its nine image slices. -/
def imgFam1 (c : Dev nD) (t : Fin cfg0.N) : Fin 9 → Vec Ideal S1x14x56x256 .bf16 :=
  ![View.ld (iblk (F := Ideal) m c 0 t) r0_22, View.ld (iblk (F := Ideal) m c 0 t) r0_23, View.ld (iblk (F := Ideal) m c 0 t) r0_24,
    View.ld (iblk (F := Ideal) m c 0 t) r0_25, View.ld (iblk (F := Ideal) m c 0 t) r0_26, View.ld (iblk (F := Ideal) m c 0 t) r0_27,
    View.ld (iblk (F := Ideal) m c 0 t) r0_28, View.ld (iblk (F := Ideal) m c 0 t) r0_29, View.ld (iblk (F := Ideal) m c 0 t) r0_30]

theorem imgFam1_apply (c : Dev nD) (t : Fin cfg0.N) (r : Fin 14) (w : Fin 56) (o : Fin 9) (k : Fin 256) :
    imgFam1 m c t o (ix4 0 r w k) = patch (argX m c) (batch t) ⟨14 + r.val, by omega⟩ w k o := by
  match o with
  | ⟨0, _⟩ => exact image_slice m c t ![0, 14, 0, 0] inb_S1x58x58x256_S1x14x56x256_0_14_0_0 ⟨14 + r.val, by omega⟩ r w k 0 rfl (by show 14 + r.val = 14 + r.val + 0 / 3; omega) rfl rfl
  | ⟨1, _⟩ => exact image_slice m c t ![0, 14, 1, 0] inb_S1x58x58x256_S1x14x56x256_0_14_1_0 ⟨14 + r.val, by omega⟩ r w k 1 rfl (by show 14 + r.val = 14 + r.val + 1 / 3; omega) rfl rfl
  | ⟨2, _⟩ => exact image_slice m c t ![0, 14, 2, 0] inb_S1x58x58x256_S1x14x56x256_0_14_2_0 ⟨14 + r.val, by omega⟩ r w k 2 rfl (by show 14 + r.val = 14 + r.val + 2 / 3; omega) rfl rfl
  | ⟨3, _⟩ => exact image_slice m c t ![0, 15, 0, 0] inb_S1x58x58x256_S1x14x56x256_0_15_0_0 ⟨14 + r.val, by omega⟩ r w k 3 rfl (by show 15 + r.val = 14 + r.val + 3 / 3; omega) rfl rfl
  | ⟨4, _⟩ => exact image_slice m c t ![0, 15, 1, 0] inb_S1x58x58x256_S1x14x56x256_0_15_1_0 ⟨14 + r.val, by omega⟩ r w k 4 rfl (by show 15 + r.val = 14 + r.val + 4 / 3; omega) rfl rfl
  | ⟨5, _⟩ => exact image_slice m c t ![0, 15, 2, 0] inb_S1x58x58x256_S1x14x56x256_0_15_2_0 ⟨14 + r.val, by omega⟩ r w k 5 rfl (by show 15 + r.val = 14 + r.val + 5 / 3; omega) rfl rfl
  | ⟨6, _⟩ => exact image_slice m c t ![0, 16, 0, 0] inb_S1x58x58x256_S1x14x56x256_0_16_0_0 ⟨14 + r.val, by omega⟩ r w k 6 rfl (by show 16 + r.val = 14 + r.val + 6 / 3; omega) rfl rfl
  | ⟨7, _⟩ => exact image_slice m c t ![0, 16, 1, 0] inb_S1x58x58x256_S1x14x56x256_0_16_1_0 ⟨14 + r.val, by omega⟩ r w k 7 rfl (by show 16 + r.val = 14 + r.val + 7 / 3; omega) rfl rfl
  | ⟨8, _⟩ => exact image_slice m c t ![0, 16, 2, 0] inb_S1x58x58x256_S1x14x56x256_0_16_2_0 ⟨14 + r.val, by omega⟩ r w k 8 rfl (by show 16 + r.val = 14 + r.val + 8 / 3; omega) rfl rfl
  | ⟨n + 9, hn⟩ => exact absurd hn (by omega)

/-- Tile 2 (image rows 28 to 41): its nine image slices. -/
def imgFam2 (c : Dev nD) (t : Fin cfg0.N) : Fin 9 → Vec Ideal S1x14x56x256 .bf16 :=
  ![View.ld (iblk (F := Ideal) m c 0 t) r0_32, View.ld (iblk (F := Ideal) m c 0 t) r0_33, View.ld (iblk (F := Ideal) m c 0 t) r0_34,
    View.ld (iblk (F := Ideal) m c 0 t) r0_35, View.ld (iblk (F := Ideal) m c 0 t) r0_36, View.ld (iblk (F := Ideal) m c 0 t) r0_37,
    View.ld (iblk (F := Ideal) m c 0 t) r0_38, View.ld (iblk (F := Ideal) m c 0 t) r0_39, View.ld (iblk (F := Ideal) m c 0 t) r0_40]

theorem imgFam2_apply (c : Dev nD) (t : Fin cfg0.N) (r : Fin 14) (w : Fin 56) (o : Fin 9) (k : Fin 256) :
    imgFam2 m c t o (ix4 0 r w k) = patch (argX m c) (batch t) ⟨28 + r.val, by omega⟩ w k o := by
  match o with
  | ⟨0, _⟩ => exact image_slice m c t ![0, 28, 0, 0] inb_S1x58x58x256_S1x14x56x256_0_28_0_0 ⟨28 + r.val, by omega⟩ r w k 0 rfl (by show 28 + r.val = 28 + r.val + 0 / 3; omega) rfl rfl
  | ⟨1, _⟩ => exact image_slice m c t ![0, 28, 1, 0] inb_S1x58x58x256_S1x14x56x256_0_28_1_0 ⟨28 + r.val, by omega⟩ r w k 1 rfl (by show 28 + r.val = 28 + r.val + 1 / 3; omega) rfl rfl
  | ⟨2, _⟩ => exact image_slice m c t ![0, 28, 2, 0] inb_S1x58x58x256_S1x14x56x256_0_28_2_0 ⟨28 + r.val, by omega⟩ r w k 2 rfl (by show 28 + r.val = 28 + r.val + 2 / 3; omega) rfl rfl
  | ⟨3, _⟩ => exact image_slice m c t ![0, 29, 0, 0] inb_S1x58x58x256_S1x14x56x256_0_29_0_0 ⟨28 + r.val, by omega⟩ r w k 3 rfl (by show 29 + r.val = 28 + r.val + 3 / 3; omega) rfl rfl
  | ⟨4, _⟩ => exact image_slice m c t ![0, 29, 1, 0] inb_S1x58x58x256_S1x14x56x256_0_29_1_0 ⟨28 + r.val, by omega⟩ r w k 4 rfl (by show 29 + r.val = 28 + r.val + 4 / 3; omega) rfl rfl
  | ⟨5, _⟩ => exact image_slice m c t ![0, 29, 2, 0] inb_S1x58x58x256_S1x14x56x256_0_29_2_0 ⟨28 + r.val, by omega⟩ r w k 5 rfl (by show 29 + r.val = 28 + r.val + 5 / 3; omega) rfl rfl
  | ⟨6, _⟩ => exact image_slice m c t ![0, 30, 0, 0] inb_S1x58x58x256_S1x14x56x256_0_30_0_0 ⟨28 + r.val, by omega⟩ r w k 6 rfl (by show 30 + r.val = 28 + r.val + 6 / 3; omega) rfl rfl
  | ⟨7, _⟩ => exact image_slice m c t ![0, 30, 1, 0] inb_S1x58x58x256_S1x14x56x256_0_30_1_0 ⟨28 + r.val, by omega⟩ r w k 7 rfl (by show 30 + r.val = 28 + r.val + 7 / 3; omega) rfl rfl
  | ⟨8, _⟩ => exact image_slice m c t ![0, 30, 2, 0] inb_S1x58x58x256_S1x14x56x256_0_30_2_0 ⟨28 + r.val, by omega⟩ r w k 8 rfl (by show 30 + r.val = 28 + r.val + 8 / 3; omega) rfl rfl
  | ⟨n + 9, hn⟩ => exact absurd hn (by omega)

/-- Tile 3 (image rows 42 to 55): its nine image slices. -/
def imgFam3 (c : Dev nD) (t : Fin cfg0.N) : Fin 9 → Vec Ideal S1x14x56x256 .bf16 :=
  ![View.ld (iblk (F := Ideal) m c 0 t) r0_42, View.ld (iblk (F := Ideal) m c 0 t) r0_43, View.ld (iblk (F := Ideal) m c 0 t) r0_44,
    View.ld (iblk (F := Ideal) m c 0 t) r0_45, View.ld (iblk (F := Ideal) m c 0 t) r0_46, View.ld (iblk (F := Ideal) m c 0 t) r0_47,
    View.ld (iblk (F := Ideal) m c 0 t) r0_48, View.ld (iblk (F := Ideal) m c 0 t) r0_49, View.ld (iblk (F := Ideal) m c 0 t) r0_50]

theorem imgFam3_apply (c : Dev nD) (t : Fin cfg0.N) (r : Fin 14) (w : Fin 56) (o : Fin 9) (k : Fin 256) :
    imgFam3 m c t o (ix4 0 r w k) = patch (argX m c) (batch t) ⟨42 + r.val, by omega⟩ w k o := by
  match o with
  | ⟨0, _⟩ => exact image_slice m c t ![0, 42, 0, 0] inb_S1x58x58x256_S1x14x56x256_0_42_0_0 ⟨42 + r.val, by omega⟩ r w k 0 rfl (by show 42 + r.val = 42 + r.val + 0 / 3; omega) rfl rfl
  | ⟨1, _⟩ => exact image_slice m c t ![0, 42, 1, 0] inb_S1x58x58x256_S1x14x56x256_0_42_1_0 ⟨42 + r.val, by omega⟩ r w k 1 rfl (by show 42 + r.val = 42 + r.val + 1 / 3; omega) rfl rfl
  | ⟨2, _⟩ => exact image_slice m c t ![0, 42, 2, 0] inb_S1x58x58x256_S1x14x56x256_0_42_2_0 ⟨42 + r.val, by omega⟩ r w k 2 rfl (by show 42 + r.val = 42 + r.val + 2 / 3; omega) rfl rfl
  | ⟨3, _⟩ => exact image_slice m c t ![0, 43, 0, 0] inb_S1x58x58x256_S1x14x56x256_0_43_0_0 ⟨42 + r.val, by omega⟩ r w k 3 rfl (by show 43 + r.val = 42 + r.val + 3 / 3; omega) rfl rfl
  | ⟨4, _⟩ => exact image_slice m c t ![0, 43, 1, 0] inb_S1x58x58x256_S1x14x56x256_0_43_1_0 ⟨42 + r.val, by omega⟩ r w k 4 rfl (by show 43 + r.val = 42 + r.val + 4 / 3; omega) rfl rfl
  | ⟨5, _⟩ => exact image_slice m c t ![0, 43, 2, 0] inb_S1x58x58x256_S1x14x56x256_0_43_2_0 ⟨42 + r.val, by omega⟩ r w k 5 rfl (by show 43 + r.val = 42 + r.val + 5 / 3; omega) rfl rfl
  | ⟨6, _⟩ => exact image_slice m c t ![0, 44, 0, 0] inb_S1x58x58x256_S1x14x56x256_0_44_0_0 ⟨42 + r.val, by omega⟩ r w k 6 rfl (by show 44 + r.val = 42 + r.val + 6 / 3; omega) rfl rfl
  | ⟨7, _⟩ => exact image_slice m c t ![0, 44, 1, 0] inb_S1x58x58x256_S1x14x56x256_0_44_1_0 ⟨42 + r.val, by omega⟩ r w k 7 rfl (by show 44 + r.val = 42 + r.val + 7 / 3; omega) rfl rfl
  | ⟨8, _⟩ => exact image_slice m c t ![0, 44, 2, 0] inb_S1x58x58x256_S1x14x56x256_0_44_2_0 ⟨42 + r.val, by omega⟩ r w k 8 rfl (by show 44 + r.val = 42 + r.val + 8 / 3; omega) rfl rfl
  | ⟨n + 9, hn⟩ => exact absurd hn (by omega)

/-! ## The output block of a point -/

/-- The arguments' specified output, as an abbreviation over the launch memory. -/
abbrev specAt (c : Dev nD) (b : Fin 8) (r w : Fin 56) (c' : Fin 256) : EReal :=
  outAt (argX m c) (argW1 m c) (argB1 m c) (argW2 m c) (argB2 m c) (argW3 m c) (argB3 m c) b r w c'

/-- The output block of point `t`: image `t`'s specified output. -/
def outBlk (c : Dev nD) (t : Fin cfg0.N) : FVec Ideal S1x56x56x256 .f32 := fun y =>
  specAt m c (batch t) ⟨(y 1).val, (y 1).isLt⟩ ⟨(y 2).val, (y 2).isLt⟩ ⟨(y 3).val, (y 3).isLt⟩

/-- Tile 3's stored payload at its pixel `(r, w)`: the specified output of image pixel `(42 + r, w)`. -/
theorem tile3_eq (c : Dev nD) (t : Fin cfg0.N) (r : Fin 14) (w : Fin 56) (c' : Fin 256) :
    tile (View.ld (iblk (F := Ideal) m c 0 t) r0_42) (View.ld (iblk (F := Ideal) m c 0 t) r0_43) (View.ld (iblk (F := Ideal) m c 0 t) r0_44)
        (View.ld (iblk (F := Ideal) m c 0 t) r0_45) (View.ld (iblk (F := Ideal) m c 0 t) r0_46) (View.ld (iblk (F := Ideal) m c 0 t) r0_47)
        (View.ld (iblk (F := Ideal) m c 0 t) r0_48) (View.ld (iblk (F := Ideal) m c 0 t) r0_49) (View.ld (iblk (F := Ideal) m c 0 t) r0_50)
        (View.ld (iblk (F := Ideal) m c 1 t) r0_3) (View.ld (iblk (F := Ideal) m c 1 t) r0_5) (View.ld (iblk (F := Ideal) m c 1 t) r0_7)
        (View.ld (iblk (F := Ideal) m c 1 t) r0_9) (View.ld (iblk (F := Ideal) m c 1 t) r0_11) (View.ld (iblk (F := Ideal) m c 1 t) r0_13)
        (View.ld (iblk (F := Ideal) m c 1 t) r0_15) (View.ld (iblk (F := Ideal) m c 1 t) r0_17) (View.ld (iblk (F := Ideal) m c 1 t) r0_19)
        (k0_pay2 (View.ld (iblk (F := Ideal) m c 2 t) r0_0)) (View.ld (iblk (F := Ideal) m c 3 t) r0_20) (k0_pay3 (View.ld (iblk (F := Ideal) m c 4 t) r0_1))
        (View.ld (iblk (F := Ideal) m c 5 t) r0_3) (View.ld (iblk (F := Ideal) m c 5 t) r0_5) (View.ld (iblk (F := Ideal) m c 5 t) r0_7)
        (View.ld (iblk (F := Ideal) m c 5 t) r0_9) (View.ld (iblk (F := Ideal) m c 5 t) r0_11) (View.ld (iblk (F := Ideal) m c 5 t) r0_13)
        (View.ld (iblk (F := Ideal) m c 5 t) r0_15) (View.ld (iblk (F := Ideal) m c 5 t) r0_17) (View.ld (iblk (F := Ideal) m c 5 t) r0_19)
        (k0_pay4 (View.ld (iblk (F := Ideal) m c 6 t) r0_0)) (ix4 0 r w c')
      = specAt m c (batch t) ⟨42 + r.val, by omega⟩ w c' :=
  tile_eq_outAt_slices
    (View.ld (iblk (F := Ideal) m c 0 t) r0_42) (View.ld (iblk (F := Ideal) m c 0 t) r0_43) (View.ld (iblk (F := Ideal) m c 0 t) r0_44)
    (View.ld (iblk (F := Ideal) m c 0 t) r0_45) (View.ld (iblk (F := Ideal) m c 0 t) r0_46) (View.ld (iblk (F := Ideal) m c 0 t) r0_47)
    (View.ld (iblk (F := Ideal) m c 0 t) r0_48) (View.ld (iblk (F := Ideal) m c 0 t) r0_49) (View.ld (iblk (F := Ideal) m c 0 t) r0_50)
    (View.ld (iblk (F := Ideal) m c 1 t) r0_3) (View.ld (iblk (F := Ideal) m c 1 t) r0_5) (View.ld (iblk (F := Ideal) m c 1 t) r0_7)
    (View.ld (iblk (F := Ideal) m c 1 t) r0_9) (View.ld (iblk (F := Ideal) m c 1 t) r0_11) (View.ld (iblk (F := Ideal) m c 1 t) r0_13)
    (View.ld (iblk (F := Ideal) m c 1 t) r0_15) (View.ld (iblk (F := Ideal) m c 1 t) r0_17) (View.ld (iblk (F := Ideal) m c 1 t) r0_19)
    (k0_pay2 (View.ld (iblk (F := Ideal) m c 2 t) r0_0)) (View.ld (iblk (F := Ideal) m c 3 t) r0_20) (k0_pay3 (View.ld (iblk (F := Ideal) m c 4 t) r0_1))
    (View.ld (iblk (F := Ideal) m c 5 t) r0_3) (View.ld (iblk (F := Ideal) m c 5 t) r0_5) (View.ld (iblk (F := Ideal) m c 5 t) r0_7)
    (View.ld (iblk (F := Ideal) m c 5 t) r0_9) (View.ld (iblk (F := Ideal) m c 5 t) r0_11) (View.ld (iblk (F := Ideal) m c 5 t) r0_13)
    (View.ld (iblk (F := Ideal) m c 5 t) r0_15) (View.ld (iblk (F := Ideal) m c 5 t) r0_17) (View.ld (iblk (F := Ideal) m c 5 t) r0_19)
    (k0_pay4 (View.ld (iblk (F := Ideal) m c 6 t) r0_0))
    (argX m c) (argW1 m c) (argB1 m c) (argW2 m c) (argB2 m c) (argW3 m c) (argB3 m c) (batch t) ⟨42 + r.val, by omega⟩ r w
    (fun o k => imgFam3_apply m c t r w o k) (fun o k cc => w1Fam_apply m c t o k cc) (fun o k cc => w3Fam_apply m c t o k cc)
    (bias1_read m c t) (bias3_read m c t) (weight2_read m c t) (bias2_read m c t) c'

/-- Tile 2's stored payload at its pixel `(r, w)`: the specified output of image pixel `(28 + r, w)`. -/
theorem tile2_eq (c : Dev nD) (t : Fin cfg0.N) (r : Fin 14) (w : Fin 56) (c' : Fin 256) :
    tile (View.ld (iblk (F := Ideal) m c 0 t) r0_32) (View.ld (iblk (F := Ideal) m c 0 t) r0_33) (View.ld (iblk (F := Ideal) m c 0 t) r0_34)
        (View.ld (iblk (F := Ideal) m c 0 t) r0_35) (View.ld (iblk (F := Ideal) m c 0 t) r0_36) (View.ld (iblk (F := Ideal) m c 0 t) r0_37)
        (View.ld (iblk (F := Ideal) m c 0 t) r0_38) (View.ld (iblk (F := Ideal) m c 0 t) r0_39) (View.ld (iblk (F := Ideal) m c 0 t) r0_40)
        (View.ld (iblk (F := Ideal) m c 1 t) r0_3) (View.ld (iblk (F := Ideal) m c 1 t) r0_5) (View.ld (iblk (F := Ideal) m c 1 t) r0_7)
        (View.ld (iblk (F := Ideal) m c 1 t) r0_9) (View.ld (iblk (F := Ideal) m c 1 t) r0_11) (View.ld (iblk (F := Ideal) m c 1 t) r0_13)
        (View.ld (iblk (F := Ideal) m c 1 t) r0_15) (View.ld (iblk (F := Ideal) m c 1 t) r0_17) (View.ld (iblk (F := Ideal) m c 1 t) r0_19)
        (k0_pay2 (View.ld (iblk (F := Ideal) m c 2 t) r0_0)) (View.ld (iblk (F := Ideal) m c 3 t) r0_20) (k0_pay3 (View.ld (iblk (F := Ideal) m c 4 t) r0_1))
        (View.ld (iblk (F := Ideal) m c 5 t) r0_3) (View.ld (iblk (F := Ideal) m c 5 t) r0_5) (View.ld (iblk (F := Ideal) m c 5 t) r0_7)
        (View.ld (iblk (F := Ideal) m c 5 t) r0_9) (View.ld (iblk (F := Ideal) m c 5 t) r0_11) (View.ld (iblk (F := Ideal) m c 5 t) r0_13)
        (View.ld (iblk (F := Ideal) m c 5 t) r0_15) (View.ld (iblk (F := Ideal) m c 5 t) r0_17) (View.ld (iblk (F := Ideal) m c 5 t) r0_19)
        (k0_pay4 (View.ld (iblk (F := Ideal) m c 6 t) r0_0)) (ix4 0 r w c')
      = specAt m c (batch t) ⟨28 + r.val, by omega⟩ w c' :=
  tile_eq_outAt_slices
    (View.ld (iblk (F := Ideal) m c 0 t) r0_32) (View.ld (iblk (F := Ideal) m c 0 t) r0_33) (View.ld (iblk (F := Ideal) m c 0 t) r0_34)
    (View.ld (iblk (F := Ideal) m c 0 t) r0_35) (View.ld (iblk (F := Ideal) m c 0 t) r0_36) (View.ld (iblk (F := Ideal) m c 0 t) r0_37)
    (View.ld (iblk (F := Ideal) m c 0 t) r0_38) (View.ld (iblk (F := Ideal) m c 0 t) r0_39) (View.ld (iblk (F := Ideal) m c 0 t) r0_40)
    (View.ld (iblk (F := Ideal) m c 1 t) r0_3) (View.ld (iblk (F := Ideal) m c 1 t) r0_5) (View.ld (iblk (F := Ideal) m c 1 t) r0_7)
    (View.ld (iblk (F := Ideal) m c 1 t) r0_9) (View.ld (iblk (F := Ideal) m c 1 t) r0_11) (View.ld (iblk (F := Ideal) m c 1 t) r0_13)
    (View.ld (iblk (F := Ideal) m c 1 t) r0_15) (View.ld (iblk (F := Ideal) m c 1 t) r0_17) (View.ld (iblk (F := Ideal) m c 1 t) r0_19)
    (k0_pay2 (View.ld (iblk (F := Ideal) m c 2 t) r0_0)) (View.ld (iblk (F := Ideal) m c 3 t) r0_20) (k0_pay3 (View.ld (iblk (F := Ideal) m c 4 t) r0_1))
    (View.ld (iblk (F := Ideal) m c 5 t) r0_3) (View.ld (iblk (F := Ideal) m c 5 t) r0_5) (View.ld (iblk (F := Ideal) m c 5 t) r0_7)
    (View.ld (iblk (F := Ideal) m c 5 t) r0_9) (View.ld (iblk (F := Ideal) m c 5 t) r0_11) (View.ld (iblk (F := Ideal) m c 5 t) r0_13)
    (View.ld (iblk (F := Ideal) m c 5 t) r0_15) (View.ld (iblk (F := Ideal) m c 5 t) r0_17) (View.ld (iblk (F := Ideal) m c 5 t) r0_19)
    (k0_pay4 (View.ld (iblk (F := Ideal) m c 6 t) r0_0))
    (argX m c) (argW1 m c) (argB1 m c) (argW2 m c) (argB2 m c) (argW3 m c) (argB3 m c) (batch t) ⟨28 + r.val, by omega⟩ r w
    (fun o k => imgFam2_apply m c t r w o k) (fun o k cc => w1Fam_apply m c t o k cc) (fun o k cc => w3Fam_apply m c t o k cc)
    (bias1_read m c t) (bias3_read m c t) (weight2_read m c t) (bias2_read m c t) c'

/-- Tile 1's stored payload at its pixel `(r, w)`: the specified output of image pixel `(14 + r, w)`. -/
theorem tile1_eq (c : Dev nD) (t : Fin cfg0.N) (r : Fin 14) (w : Fin 56) (c' : Fin 256) :
    tile (View.ld (iblk (F := Ideal) m c 0 t) r0_22) (View.ld (iblk (F := Ideal) m c 0 t) r0_23) (View.ld (iblk (F := Ideal) m c 0 t) r0_24)
        (View.ld (iblk (F := Ideal) m c 0 t) r0_25) (View.ld (iblk (F := Ideal) m c 0 t) r0_26) (View.ld (iblk (F := Ideal) m c 0 t) r0_27)
        (View.ld (iblk (F := Ideal) m c 0 t) r0_28) (View.ld (iblk (F := Ideal) m c 0 t) r0_29) (View.ld (iblk (F := Ideal) m c 0 t) r0_30)
        (View.ld (iblk (F := Ideal) m c 1 t) r0_3) (View.ld (iblk (F := Ideal) m c 1 t) r0_5) (View.ld (iblk (F := Ideal) m c 1 t) r0_7)
        (View.ld (iblk (F := Ideal) m c 1 t) r0_9) (View.ld (iblk (F := Ideal) m c 1 t) r0_11) (View.ld (iblk (F := Ideal) m c 1 t) r0_13)
        (View.ld (iblk (F := Ideal) m c 1 t) r0_15) (View.ld (iblk (F := Ideal) m c 1 t) r0_17) (View.ld (iblk (F := Ideal) m c 1 t) r0_19)
        (k0_pay2 (View.ld (iblk (F := Ideal) m c 2 t) r0_0)) (View.ld (iblk (F := Ideal) m c 3 t) r0_20) (k0_pay3 (View.ld (iblk (F := Ideal) m c 4 t) r0_1))
        (View.ld (iblk (F := Ideal) m c 5 t) r0_3) (View.ld (iblk (F := Ideal) m c 5 t) r0_5) (View.ld (iblk (F := Ideal) m c 5 t) r0_7)
        (View.ld (iblk (F := Ideal) m c 5 t) r0_9) (View.ld (iblk (F := Ideal) m c 5 t) r0_11) (View.ld (iblk (F := Ideal) m c 5 t) r0_13)
        (View.ld (iblk (F := Ideal) m c 5 t) r0_15) (View.ld (iblk (F := Ideal) m c 5 t) r0_17) (View.ld (iblk (F := Ideal) m c 5 t) r0_19)
        (k0_pay4 (View.ld (iblk (F := Ideal) m c 6 t) r0_0)) (ix4 0 r w c')
      = specAt m c (batch t) ⟨14 + r.val, by omega⟩ w c' :=
  tile_eq_outAt_slices
    (View.ld (iblk (F := Ideal) m c 0 t) r0_22) (View.ld (iblk (F := Ideal) m c 0 t) r0_23) (View.ld (iblk (F := Ideal) m c 0 t) r0_24)
    (View.ld (iblk (F := Ideal) m c 0 t) r0_25) (View.ld (iblk (F := Ideal) m c 0 t) r0_26) (View.ld (iblk (F := Ideal) m c 0 t) r0_27)
    (View.ld (iblk (F := Ideal) m c 0 t) r0_28) (View.ld (iblk (F := Ideal) m c 0 t) r0_29) (View.ld (iblk (F := Ideal) m c 0 t) r0_30)
    (View.ld (iblk (F := Ideal) m c 1 t) r0_3) (View.ld (iblk (F := Ideal) m c 1 t) r0_5) (View.ld (iblk (F := Ideal) m c 1 t) r0_7)
    (View.ld (iblk (F := Ideal) m c 1 t) r0_9) (View.ld (iblk (F := Ideal) m c 1 t) r0_11) (View.ld (iblk (F := Ideal) m c 1 t) r0_13)
    (View.ld (iblk (F := Ideal) m c 1 t) r0_15) (View.ld (iblk (F := Ideal) m c 1 t) r0_17) (View.ld (iblk (F := Ideal) m c 1 t) r0_19)
    (k0_pay2 (View.ld (iblk (F := Ideal) m c 2 t) r0_0)) (View.ld (iblk (F := Ideal) m c 3 t) r0_20) (k0_pay3 (View.ld (iblk (F := Ideal) m c 4 t) r0_1))
    (View.ld (iblk (F := Ideal) m c 5 t) r0_3) (View.ld (iblk (F := Ideal) m c 5 t) r0_5) (View.ld (iblk (F := Ideal) m c 5 t) r0_7)
    (View.ld (iblk (F := Ideal) m c 5 t) r0_9) (View.ld (iblk (F := Ideal) m c 5 t) r0_11) (View.ld (iblk (F := Ideal) m c 5 t) r0_13)
    (View.ld (iblk (F := Ideal) m c 5 t) r0_15) (View.ld (iblk (F := Ideal) m c 5 t) r0_17) (View.ld (iblk (F := Ideal) m c 5 t) r0_19)
    (k0_pay4 (View.ld (iblk (F := Ideal) m c 6 t) r0_0))
    (argX m c) (argW1 m c) (argB1 m c) (argW2 m c) (argB2 m c) (argW3 m c) (argB3 m c) (batch t) ⟨14 + r.val, by omega⟩ r w
    (fun o k => imgFam1_apply m c t r w o k) (fun o k cc => w1Fam_apply m c t o k cc) (fun o k cc => w3Fam_apply m c t o k cc)
    (bias1_read m c t) (bias3_read m c t) (weight2_read m c t) (bias2_read m c t) c'

/-- Tile 0's stored payload at its pixel `(r, w)`: the specified output of image pixel `(0 + r, w)`. -/
theorem tile0_eq (c : Dev nD) (t : Fin cfg0.N) (r : Fin 14) (w : Fin 56) (c' : Fin 256) :
    tile (View.ld (iblk (F := Ideal) m c 0 t) r0_2) (View.ld (iblk (F := Ideal) m c 0 t) r0_4) (View.ld (iblk (F := Ideal) m c 0 t) r0_6)
        (View.ld (iblk (F := Ideal) m c 0 t) r0_8) (View.ld (iblk (F := Ideal) m c 0 t) r0_10) (View.ld (iblk (F := Ideal) m c 0 t) r0_12)
        (View.ld (iblk (F := Ideal) m c 0 t) r0_14) (View.ld (iblk (F := Ideal) m c 0 t) r0_16) (View.ld (iblk (F := Ideal) m c 0 t) r0_18)
        (View.ld (iblk (F := Ideal) m c 1 t) r0_3) (View.ld (iblk (F := Ideal) m c 1 t) r0_5) (View.ld (iblk (F := Ideal) m c 1 t) r0_7)
        (View.ld (iblk (F := Ideal) m c 1 t) r0_9) (View.ld (iblk (F := Ideal) m c 1 t) r0_11) (View.ld (iblk (F := Ideal) m c 1 t) r0_13)
        (View.ld (iblk (F := Ideal) m c 1 t) r0_15) (View.ld (iblk (F := Ideal) m c 1 t) r0_17) (View.ld (iblk (F := Ideal) m c 1 t) r0_19)
        (k0_pay2 (View.ld (iblk (F := Ideal) m c 2 t) r0_0)) (View.ld (iblk (F := Ideal) m c 3 t) r0_20) (k0_pay3 (View.ld (iblk (F := Ideal) m c 4 t) r0_1))
        (View.ld (iblk (F := Ideal) m c 5 t) r0_3) (View.ld (iblk (F := Ideal) m c 5 t) r0_5) (View.ld (iblk (F := Ideal) m c 5 t) r0_7)
        (View.ld (iblk (F := Ideal) m c 5 t) r0_9) (View.ld (iblk (F := Ideal) m c 5 t) r0_11) (View.ld (iblk (F := Ideal) m c 5 t) r0_13)
        (View.ld (iblk (F := Ideal) m c 5 t) r0_15) (View.ld (iblk (F := Ideal) m c 5 t) r0_17) (View.ld (iblk (F := Ideal) m c 5 t) r0_19)
        (k0_pay4 (View.ld (iblk (F := Ideal) m c 6 t) r0_0)) (ix4 0 r w c')
      = specAt m c (batch t) ⟨0 + r.val, by omega⟩ w c' :=
  tile_eq_outAt_slices
    (View.ld (iblk (F := Ideal) m c 0 t) r0_2) (View.ld (iblk (F := Ideal) m c 0 t) r0_4) (View.ld (iblk (F := Ideal) m c 0 t) r0_6)
    (View.ld (iblk (F := Ideal) m c 0 t) r0_8) (View.ld (iblk (F := Ideal) m c 0 t) r0_10) (View.ld (iblk (F := Ideal) m c 0 t) r0_12)
    (View.ld (iblk (F := Ideal) m c 0 t) r0_14) (View.ld (iblk (F := Ideal) m c 0 t) r0_16) (View.ld (iblk (F := Ideal) m c 0 t) r0_18)
    (View.ld (iblk (F := Ideal) m c 1 t) r0_3) (View.ld (iblk (F := Ideal) m c 1 t) r0_5) (View.ld (iblk (F := Ideal) m c 1 t) r0_7)
    (View.ld (iblk (F := Ideal) m c 1 t) r0_9) (View.ld (iblk (F := Ideal) m c 1 t) r0_11) (View.ld (iblk (F := Ideal) m c 1 t) r0_13)
    (View.ld (iblk (F := Ideal) m c 1 t) r0_15) (View.ld (iblk (F := Ideal) m c 1 t) r0_17) (View.ld (iblk (F := Ideal) m c 1 t) r0_19)
    (k0_pay2 (View.ld (iblk (F := Ideal) m c 2 t) r0_0)) (View.ld (iblk (F := Ideal) m c 3 t) r0_20) (k0_pay3 (View.ld (iblk (F := Ideal) m c 4 t) r0_1))
    (View.ld (iblk (F := Ideal) m c 5 t) r0_3) (View.ld (iblk (F := Ideal) m c 5 t) r0_5) (View.ld (iblk (F := Ideal) m c 5 t) r0_7)
    (View.ld (iblk (F := Ideal) m c 5 t) r0_9) (View.ld (iblk (F := Ideal) m c 5 t) r0_11) (View.ld (iblk (F := Ideal) m c 5 t) r0_13)
    (View.ld (iblk (F := Ideal) m c 5 t) r0_15) (View.ld (iblk (F := Ideal) m c 5 t) r0_17) (View.ld (iblk (F := Ideal) m c 5 t) r0_19)
    (k0_pay4 (View.ld (iblk (F := Ideal) m c 6 t) r0_0))
    (argX m c) (argW1 m c) (argB1 m c) (argW2 m c) (argB2 m c) (argW3 m c) (argB3 m c) (batch t) ⟨0 + r.val, by omega⟩ r w
    (fun o k => imgFam0_apply m c t r w o k) (fun o k cc => w1Fam_apply m c t o k cc) (fun o k cc => w3Fam_apply m c t o k cc)
    (bias1_read m c t) (bias3_read m c t) (weight2_read m c t) (bias2_read m c t) c'

/-- What the body leaves in the output window's buffer at point `t` is that block. -/
theorem after_eq (c : Dev nD) (t : Fin cfg0.N) :
    out0_7 (iblk (F := Ideal) m c 0 t) (iblk (F := Ideal) m c 1 t) (iblk (F := Ideal) m c 2 t) (iblk (F := Ideal) m c 3 t)
      (iblk (F := Ideal) m c 4 t) (iblk (F := Ideal) m c 5 t) (iblk (F := Ideal) m c 6 t) = outBlk m c t := by
  rw [out_eq_tiles]
  funext y
  refine View.canon_apply_of_pieces (Val := Elt Ideal) (S := S1x56x56x256) (e := .f32) (outBlk m c t) _ ?_ y (cover0_7 _ _ _ _ y)
  intro p hp x
  simp only [List.mem_cons, List.mem_nil_iff, or_false] at hp
  rcases hp with rfl | rfl | rfl | rfl
  · obtain ⟨q, r, w, c', rfl⟩ : ∃ (q : Fin 1) (r : Fin 14) (w : Fin 56) (c' : Fin 256), x = ix4 q r w c' := ⟨x 0, x 1, x 2, x 3, eq_ix4 x⟩
    obtain rfl : q = 0 := Fin.eq_zero q
    refine (tile3_eq m c t r w c').trans ?_
    show _ = specAt m c (batch t) ⟨42 + 1 * r.val, _⟩ ⟨0 + 1 * w.val, _⟩ ⟨0 + 1 * c'.val, _⟩
    congr 1 <;> exact Fin.ext (by simp)
  · obtain ⟨q, r, w, c', rfl⟩ : ∃ (q : Fin 1) (r : Fin 14) (w : Fin 56) (c' : Fin 256), x = ix4 q r w c' := ⟨x 0, x 1, x 2, x 3, eq_ix4 x⟩
    obtain rfl : q = 0 := Fin.eq_zero q
    refine (tile2_eq m c t r w c').trans ?_
    show _ = specAt m c (batch t) ⟨28 + 1 * r.val, _⟩ ⟨0 + 1 * w.val, _⟩ ⟨0 + 1 * c'.val, _⟩
    congr 1 <;> exact Fin.ext (by simp)
  · obtain ⟨q, r, w, c', rfl⟩ : ∃ (q : Fin 1) (r : Fin 14) (w : Fin 56) (c' : Fin 256), x = ix4 q r w c' := ⟨x 0, x 1, x 2, x 3, eq_ix4 x⟩
    obtain rfl : q = 0 := Fin.eq_zero q
    refine (tile1_eq m c t r w c').trans ?_
    show _ = specAt m c (batch t) ⟨14 + 1 * r.val, _⟩ ⟨0 + 1 * w.val, _⟩ ⟨0 + 1 * c'.val, _⟩
    congr 1 <;> exact Fin.ext (by simp)
  · obtain ⟨q, r, w, c', rfl⟩ : ∃ (q : Fin 1) (r : Fin 14) (w : Fin 56) (c' : Fin 256), x = ix4 q r w c' := ⟨x 0, x 1, x 2, x 3, eq_ix4 x⟩
    obtain rfl : q = 0 := Fin.eq_zero q
    refine (tile0_eq m c t r w c').trans ?_
    show _ = specAt m c (batch t) ⟨0 + 1 * r.val, _⟩ ⟨0 + 1 * w.val, _⟩ ⟨0 + 1 * c'.val, _⟩
    congr 1 <;> exact Fin.ext (by simp)

/-! ## The array after the run -/

/-- The output array `[8, 56, 56, 256]`: the specified output, pixel by pixel. -/
def outArr (c : Dev nD) : FVec Ideal S8x56x56x256 .f32 := fun i =>
  specAt m c ⟨(i 0).val, (i 0).isLt⟩ ⟨(i 1).val, (i 1).isLt⟩ ⟨(i 2).val, (i 2).isLt⟩ ⟨(i 3).val, (i 3).isLt⟩

/-- What point `t` writes back is block `t` of that array. -/
theorem flushed_eq (c : Dev nD) (t : Fin cfg0.N) :
    (dats (F := Ideal) m 0 c).flushed 7 t = ((cfg0.win 7).blk t).view.read (Elt Ideal) (outArr m c) := by
  show (cfg0.win 7).cut (grid0.coords t) ((dats (F := Ideal) m 0 c).after 7 t) = _
  rw [after0_7, after_eq]
  obtain ⟨-, -, -, -, -, -, -, -, -, -, -, -, -, -, -, -, -, -, e0, e1, e2, e3⟩ := idx_facts t
  funext y
  show outBlk m c t y = outArr m c (((cfg0.win 7).blk t).view.emb y)
  have e : ((cfg0.win 7).blk t).view.emb y
      = ix4 (batch t) ⟨(y 1).val, (y 1).isLt⟩ ⟨(y 2).val, (y 2).isLt⟩ ⟨(y 3).val, (y 3).isLt⟩ := funext fun a => Fin.ext (by
    match a with
    | ⟨0, _⟩ =>
      have hy : (y 0).val < 1 := (y 0).isLt
      show win0_7.index t (0 : Fin 4) * 1 + 1 * (y 0).val = t.val
      omega
    | ⟨1, _⟩ => show win0_7.index t (1 : Fin 4) * 56 + 1 * (y 1).val = (y 1).val; omega
    | ⟨2, _⟩ => show win0_7.index t (2 : Fin 4) * 56 + 1 * (y 2).val = (y 2).val; omega
    | ⟨3, _⟩ => show win0_7.index t (3 : Fin 4) * 256 + 1 * (y 3).val = (y 3).val; omega)
  rw [e]
  rfl

/-- An index of the array is in point `t`'s block iff each coordinate is in the block's range on its axis. -/
theorem mem_blk (t : Fin cfg0.N) (i : S8x56x56x256.Idx) :
    i ∈ ((cfg0.win 7).blk t).view.set ↔ ∀ a : Fin 4, win0_7.index t a * S1x56x56x256.size a ≤ (i a).val
      ∧ (i a).val < win0_7.index t a * S1x56x56x256.size a + S1x56x56x256.size a := by
  show i ∈ ((View.whole main_v16).slice (win0_7.rect t)).set ↔ _
  rw [View.set_slice_whole, Rect.mem_set_unit]
  exact Iff.rfl

/-- Every entry of the array is in the block of its image's point. -/
theorem cover (i : S8x56x56x256.Idx) :
    ∃ t : Fin cfg0.N, (cfg0.win 7).flush t = true ∧ i ∈ ((cfg0.win 7).blk t).view.set := by
  have hi0 : (i 0).val < 8 := (i 0).isLt
  have hi1 : (i 1).val < 56 := (i 1).isLt
  have hi2 : (i 2).val < 56 := (i 2).isLt
  have hi3 : (i 3).val < 256 := (i 3).isLt
  let t : Fin cfg0.N := ⟨(i 0).val, by show (i 0).val < grid0.N; rw [N_0]; exact hi0⟩
  obtain ⟨-, -, -, -, -, -, -, -, -, -, -, -, -, -, -, -, -, -, e0, e1, e2, e3⟩ := idx_facts t
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; rw [e0]; show (i 0).val * 1 ≤ (i 0).val ∧ (i 0).val < (i 0).val * 1 + 1; omega
  | ⟨1, _⟩ => show win0_7.index t (1 : Fin 4) * 56 ≤ (i 1).val ∧ (i 1).val < win0_7.index t (1 : Fin 4) * 56 + 56; omega
  | ⟨2, _⟩ => show win0_7.index t (2 : Fin 4) * 56 ≤ (i 2).val ∧ (i 2).val < win0_7.index t (2 : Fin 4) * 56 + 56; omega
  | ⟨3, _⟩ => show win0_7.index t (3 : Fin 4) * 256 ≤ (i 3).val ∧ (i 3).val < win0_7.index t (3 : Fin 4) * 256 + 256; omega

/-- The output array after the run. -/
theorem final (c : Dev nD) : (dats (F := Ideal) m 0 c).arrAt 7 cfg0.N = outArr m c :=
  (dats (F := Ideal) m 0 c).arrAt_eq_of_cover 7 (outArr m c) (fun t _ => flushed_eq m c t) cover

/-! ## The reshape after the region, and the run -/

/-- Rows and columns merged: the array `[8, 3136, 256]` of the specification. -/
theorem merged_eq (c : Dev nD) :
    shapeCast S8x3136x256 (outArr m c) shapeCasts_S8x56x56x256_S8x3136x256
      = result (argX m c) (argW1 m c) (argB1 m c) (argW2 m c) (argB2 m c) (argW3 m c) (argB3 m c) := by
  funext i
  obtain ⟨b, l, c', rfl⟩ : ∃ (b : Fin 8) (l : Fin 3136) (c' : Fin 256), i = ix3 b l c' := ⟨i 0, i 1, i 2, eq_ix3 i⟩
  refine (shapeCast_apply (outArr m c) shapeCasts_S8x56x56x256_S8x3136x256 (ix3 b l c')
    (ix4 b ⟨l.val / 56, by omega⟩ ⟨l.val % 56, by omega⟩ c') ?_).trans ?_
  · rw [Shape.rowMajor_val_four, Shape.rowMajor_val_three]
    show ((b.val * 56 + l.val / 56) * 56 + l.val % 56) * 256 + c'.val = (b.val * 3136 + l.val) * 256 + c'.val
    omega
  · rfl

/-- The result buffer after the lines that follow the region. -/
theorem tail_eq (c : Dev nD) :
    Pipeline.afterTail₀ cfgs (dats (F := Ideal) m) 0 (V0 m) [hostOps1] c main_v17
      = result (argX m c) (argW1 m c) (argB1 m c) (argW2 m c) (argB2 m c) (argW3 m c) (argB3 m c) := by
  unfold Pipeline.afterTail₀
  show StableHlo.after hostOps1 _ (Proc.devRef .tc main_v17) = _
  after_results
  have ha : Pipeline.withArrays spec0 c (V0 m c) (fun w => (dats (F := Ideal) m 0 c).arrAt w cfg0.N) (Proc.devRef .tc main_v16) = outArr m c :=
    (Pipeline.withArrays_arr spec0 launch0.win.arr_inj c _ _ 7).trans (final m c)
  rw [ha]
  exact merged_eq m c

/-- THE KERNEL'S RUN: every weakly fair execution terminates with the result buffer at the specified array of the
    arguments, and the arguments unchanged. -/
theorem run : θ_run defs (onTc (τ := τ) (main (F := Ideal))) ⟨m, fun _ => 0, ρ⟩ (fun r => ∀ c : Dev nD,
      r.2.mem ((c.tc : Thread nD τ).loc main_v17)
        = result (argX m c) (argW1 m c) (argB1 m c) (argW2 m c) (argB2 m c) (argW3 m c) (argB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨((h c).2 main_v17 (Pipeline.mem_restRefs_of main_v17 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.KernelValue

end
-- ==== Proof.RefRead.lean ====
/-
  The reference's result read at an index: the unfolded patches, the two dense layers with their
  pointwise nonlinearities, and the gated third layer, each entry as a finite sum over the
  argument arrays.

  The reference pads the image, takes the nine shifted 56 × 56 windows, stacks them on a new axis of extent nine between
  the channels and the rows, merges channels with offsets (`d = c·9 + o`) and rows with columns (`l = r·56 + w`), and
  swaps the two merged axes: entry `(b, l, d)` of that tensor is the patch of pixel `(l / 56, l % 56)` at the flat
  coordinate `d`. Its logistic is spelt `1 / (1 + exp (−y))`, which is the logistic of the ideal values by definition.
-/
import proofs.«163215_j12000138625349_1_alg».proof.Proof.Gen.ReferenceIdeal.Run
import proofs.«163215_j12000138625349_1_alg».proof.Proof.Gen.ReferenceIdeal.Read
import proofs.«163215_j12000138625349_1_alg».proof.Proof.Spec
import Idealize.ShloMosaic.Lib.Pipeline.Value
import Idealize.ShloMosaic.Lib.KernelVsHost
import Idealize.ShloMosaic.Lib.IdealHost
import Idealize.ShloMosaic.Lib.ValueIdx

noncomputable section

open scoped BigOperators

namespace Cert.ReferenceIdeal.RefRead

open Idealize.ShloMosaic Idealize.ShloMosaic.ValueIdx Idealize.ShloMosaic.TcCoe Idealize.SL.Sem
open Cert.ReferenceIdeal Cert.ReferenceIdeal.Gen Cert.ReferenceIdeal.Read Cert.GatedPatch

variable (x0 : FVec Ideal S8x256x56x56 .f32) (x1 : FVec Ideal S2304x256 .f32) (x2 : FVec Ideal S256 .f32)
  (x3 : FVec Ideal S256x2304 .f32) (x4 : FVec Ideal S2304 .f32) (x5 : FVec Ideal S2304x256 .f32) (x6 : FVec Ideal S256 .f32)

/-! ## The padded image -/

theorem fill_zero (i : S_.Idx) : val_main_call0_v0 (F := Ideal) i = 0 := by
  show (((0#32 : BitVec 32).toInt : ℝ) : EReal) = 0
  simp

theorem padded_apply (b : Fin 8) (c : Fin 256) (i j : Fin 58) :
    val_main_v0 (F := Ideal) x0 (ix4 b c i j) = padded x0 b c i j := by
  unfold val_main_v0 padded
  by_cases h : (1 ≤ i.val ∧ i.val ≤ 56) ∧ (1 ≤ j.val ∧ j.val ≤ 56)
  · rw [dif_pos h]
    refine pad_apply_of_inside (s := S8x256x56x56) (t := S8x256x58x58) ![0, 0, 1, 1] ![0, 0, 1, 1] ![0, 0, 0, 0] x0 _
      pads_S8x256x56x56_S8x256x58x58_000_000_110_110 h_S_
      (ix4 b c i j) (ix4 b c ⟨i.val - 1, by omega⟩ ⟨j.val - 1, by omega⟩) fun a => ?_
    match a with
    | ⟨0, _⟩ => show b.val = 0 + b.val * (0 + 1); omega
    | ⟨1, _⟩ => show c.val = 0 + c.val * (0 + 1); omega
    | ⟨2, _⟩ => show i.val = 1 + (i.val - 1) * (0 + 1); omega
    | ⟨3, _⟩ => show j.val = 1 + (j.val - 1) * (0 + 1); omega
  · rw [dif_neg h]
    by_cases hi : 1 ≤ i.val ∧ i.val ≤ 56
    · have hj : ¬(1 ≤ j.val ∧ j.val ≤ 56) := fun hj => h ⟨hi, hj⟩
      refine (pad_apply_of_not_inside (s := S8x256x56x56) (t := S8x256x58x58) ![0, 0, 1, 1] ![0, 0, 1, 1] ![0, 0, 0, 0] x0 _
        pads_S8x256x56x56_S8x256x58x58_000_000_110_110 h_S_ (ix4 b c i j) (⟨3, by decide⟩ : Fin S8x256x56x56.rank) ?_).trans (fill_zero _)
      show ¬(1 ≤ j.val ∧ (j.val - 1) % (0 + 1) = 0 ∧ (j.val - 1) / (0 + 1) < 56)
      omega
    · refine (pad_apply_of_not_inside (s := S8x256x56x56) (t := S8x256x58x58) ![0, 0, 1, 1] ![0, 0, 1, 1] ![0, 0, 0, 0] x0 _
        pads_S8x256x56x56_S8x256x58x58_000_000_110_110 h_S_ (ix4 b c i j) (⟨2, by decide⟩ : Fin S8x256x56x56.rank) ?_).trans (fill_zero _)
      show ¬(1 ≤ i.val ∧ (i.val - 1) % (0 + 1) = 0 ∧ (i.val - 1) / (0 + 1) < 56)
      omega

/-! ## The nine shifted windows, each with its new unit axis -/

theorem slab0 (b : Fin 8) (c : Fin 256) (h w : Fin 56) :
    val_main_v10 (F := Ideal) x0 (ix5 b c 0 h w) = patch x0 b h w c 0 := by
  rw [val_main_v10_apply, val_main_v1_apply]
  have e : idx_main_v1 (idx_main_v10 (ix5 b c (0 : Fin 1) h w)) = ix4 b c ⟨h.val + 0, by omega⟩ ⟨w.val + 0, by omega⟩ :=
    funext fun a => Fin.ext (by
      match a with
      | ⟨0, _⟩ => rfl
      | ⟨1, _⟩ => rfl
      | ⟨2, _⟩ => rfl
      | ⟨3, _⟩ => rfl)
  rw [e, padded_apply]
  rfl

theorem slab1 (b : Fin 8) (c : Fin 256) (h w : Fin 56) :
    val_main_v11 (F := Ideal) x0 (ix5 b c 0 h w) = patch x0 b h w c 1 := by
  rw [val_main_v11_apply, val_main_v2_apply]
  have e : idx_main_v2 (idx_main_v11 (ix5 b c (0 : Fin 1) h w)) = ix4 b c ⟨h.val + 0, by omega⟩ ⟨w.val + 1, by omega⟩ :=
    funext fun a => Fin.ext (by
      match a with
      | ⟨0, _⟩ => rfl
      | ⟨1, _⟩ => rfl
      | ⟨2, _⟩ => rfl
      | ⟨3, _⟩ => show 1 + w.val = w.val + 1; omega)
  rw [e, padded_apply]
  rfl

theorem slab2 (b : Fin 8) (c : Fin 256) (h w : Fin 56) :
    val_main_v12 (F := Ideal) x0 (ix5 b c 0 h w) = patch x0 b h w c 2 := by
  rw [val_main_v12_apply, val_main_v3_apply]
  have e : idx_main_v3 (idx_main_v12 (ix5 b c (0 : Fin 1) h w)) = ix4 b c ⟨h.val + 0, by omega⟩ ⟨w.val + 2, by omega⟩ :=
    funext fun a => Fin.ext (by
      match a with
      | ⟨0, _⟩ => rfl
      | ⟨1, _⟩ => rfl
      | ⟨2, _⟩ => rfl
      | ⟨3, _⟩ => show 2 + w.val = w.val + 2; omega)
  rw [e, padded_apply]
  rfl

theorem slab3 (b : Fin 8) (c : Fin 256) (h w : Fin 56) :
    val_main_v13 (F := Ideal) x0 (ix5 b c 0 h w) = patch x0 b h w c 3 := by
  rw [val_main_v13_apply, val_main_v4_apply]
  have e : idx_main_v4 (idx_main_v13 (ix5 b c (0 : Fin 1) h w)) = ix4 b c ⟨h.val + 1, by omega⟩ ⟨w.val + 0, by omega⟩ :=
    funext fun a => Fin.ext (by
      match a with
      | ⟨0, _⟩ => rfl
      | ⟨1, _⟩ => rfl
      | ⟨2, _⟩ => show 1 + h.val = h.val + 1; omega
      | ⟨3, _⟩ => rfl)
  rw [e, padded_apply]
  rfl

theorem slab4 (b : Fin 8) (c : Fin 256) (h w : Fin 56) :
    val_main_v14 (F := Ideal) x0 (ix5 b c 0 h w) = patch x0 b h w c 4 := by
  rw [val_main_v14_apply, val_main_v5_apply]
  have e : idx_main_v5 (idx_main_v14 (ix5 b c (0 : Fin 1) h w)) = ix4 b c ⟨h.val + 1, by omega⟩ ⟨w.val + 1, by omega⟩ :=
    funext fun a => Fin.ext (by
      match a with
      | ⟨0, _⟩ => rfl
      | ⟨1, _⟩ => rfl
      | ⟨2, _⟩ => show 1 + h.val = h.val + 1; omega
      | ⟨3, _⟩ => show 1 + w.val = w.val + 1; omega)
  rw [e, padded_apply]
  rfl

theorem slab5 (b : Fin 8) (c : Fin 256) (h w : Fin 56) :
    val_main_v15 (F := Ideal) x0 (ix5 b c 0 h w) = patch x0 b h w c 5 := by
  rw [val_main_v15_apply, val_main_v6_apply]
  have e : idx_main_v6 (idx_main_v15 (ix5 b c (0 : Fin 1) h w)) = ix4 b c ⟨h.val + 1, by omega⟩ ⟨w.val + 2, by omega⟩ :=
    funext fun a => Fin.ext (by
      match a with
      | ⟨0, _⟩ => rfl
      | ⟨1, _⟩ => rfl
      | ⟨2, _⟩ => show 1 + h.val = h.val + 1; omega
      | ⟨3, _⟩ => show 2 + w.val = w.val + 2; omega)
  rw [e, padded_apply]
  rfl

theorem slab6 (b : Fin 8) (c : Fin 256) (h w : Fin 56) :
    val_main_v16 (F := Ideal) x0 (ix5 b c 0 h w) = patch x0 b h w c 6 := by
  rw [val_main_v16_apply, val_main_v7_apply]
  have e : idx_main_v7 (idx_main_v16 (ix5 b c (0 : Fin 1) h w)) = ix4 b c ⟨h.val + 2, by omega⟩ ⟨w.val + 0, by omega⟩ :=
    funext fun a => Fin.ext (by
      match a with
      | ⟨0, _⟩ => rfl
      | ⟨1, _⟩ => rfl
      | ⟨2, _⟩ => show 2 + h.val = h.val + 2; omega
      | ⟨3, _⟩ => rfl)
  rw [e, padded_apply]
  rfl

theorem slab7 (b : Fin 8) (c : Fin 256) (h w : Fin 56) :
    val_main_v17 (F := Ideal) x0 (ix5 b c 0 h w) = patch x0 b h w c 7 := by
  rw [val_main_v17_apply, val_main_v8_apply]
  have e : idx_main_v8 (idx_main_v17 (ix5 b c (0 : Fin 1) h w)) = ix4 b c ⟨h.val + 2, by omega⟩ ⟨w.val + 1, by omega⟩ :=
    funext fun a => Fin.ext (by
      match a with
      | ⟨0, _⟩ => rfl
      | ⟨1, _⟩ => rfl
      | ⟨2, _⟩ => show 2 + h.val = h.val + 2; omega
      | ⟨3, _⟩ => show 1 + w.val = w.val + 1; omega)
  rw [e, padded_apply]
  rfl

theorem slab8 (b : Fin 8) (c : Fin 256) (h w : Fin 56) :
    val_main_v18 (F := Ideal) x0 (ix5 b c 0 h w) = patch x0 b h w c 8 := by
  rw [val_main_v18_apply, val_main_v9_apply]
  have e : idx_main_v9 (idx_main_v18 (ix5 b c (0 : Fin 1) h w)) = ix4 b c ⟨h.val + 2, by omega⟩ ⟨w.val + 2, by omega⟩ :=
    funext fun a => Fin.ext (by
      match a with
      | ⟨0, _⟩ => rfl
      | ⟨1, _⟩ => rfl
      | ⟨2, _⟩ => show 2 + h.val = h.val + 2; omega
      | ⟨3, _⟩ => show 2 + w.val = w.val + 2; omega)
  rw [e, padded_apply]
  rfl

/-! ## The stack of the nine windows -/

/-- Off the stacking axis the index is kept. -/
theorem stack_off (b : Fin 8) (c : Fin 256) (o : Fin 9) (h w : Fin 56) (bb : Fin S8x256x1x56x56.rank)
    (hb : bb.cast (rfl : S8x256x1x56x56.rank = S8x256x9x56x56.rank) ≠ (2 : Fin S8x256x9x56x56.rank)) :
    ((ix5 b c (0 : Fin 1) h w : S8x256x1x56x56.Idx) bb).val = ((ix5 b c o h w : S8x256x9x56x56.Idx) (bb.cast rfl)).val := by
  match bb, hb with
  | ⟨0, _⟩, _ => rfl
  | ⟨1, _⟩, _ => rfl
  | ⟨2, _⟩, hb => exact absurd rfl hb
  | ⟨3, _⟩, _ => rfl
  | ⟨4, _⟩, _ => rfl

/-- The stacked tensor at channel `c`, offset `o` and pixel `(h, w)` is the patch entry. -/
theorem stack_apply (b : Fin 8) (c : Fin 256) (o : Fin 9) (h w : Fin 56) :
    val_main_v19 (F := Ideal) x0 (ix5 b c o h w) = patch x0 b h w c o := by
  unfold val_main_v19
  match o with
  | ⟨0, _⟩ =>
    exact (concatenate_apply_piece (2 : Fin S8x256x9x56x56.rank) _ _ (ix5 b c (0 : Fin 9) h w) 0 (by show 0 < 9; omega) S8x256x1x56x56 _ rfl rfl 0 rfl
      (ix5 b c 0 h w) (stack_off b c 0 h w) rfl).trans (slab0 x0 b c h w)
  | ⟨1, _⟩ =>
    exact (concatenate_apply_piece (2 : Fin S8x256x9x56x56.rank) _ _ (ix5 b c (1 : Fin 9) h w) 1 (by show 1 < 9; omega) S8x256x1x56x56 _ rfl rfl 1 rfl
      (ix5 b c 0 h w) (stack_off b c 1 h w) rfl).trans (slab1 x0 b c h w)
  | ⟨2, _⟩ =>
    exact (concatenate_apply_piece (2 : Fin S8x256x9x56x56.rank) _ _ (ix5 b c (2 : Fin 9) h w) 2 (by show 2 < 9; omega) S8x256x1x56x56 _ rfl rfl 2 rfl
      (ix5 b c 0 h w) (stack_off b c 2 h w) rfl).trans (slab2 x0 b c h w)
  | ⟨3, _⟩ =>
    exact (concatenate_apply_piece (2 : Fin S8x256x9x56x56.rank) _ _ (ix5 b c (3 : Fin 9) h w) 3 (by show 3 < 9; omega) S8x256x1x56x56 _ rfl rfl 3 rfl
      (ix5 b c 0 h w) (stack_off b c 3 h w) rfl).trans (slab3 x0 b c h w)
  | ⟨4, _⟩ =>
    exact (concatenate_apply_piece (2 : Fin S8x256x9x56x56.rank) _ _ (ix5 b c (4 : Fin 9) h w) 4 (by show 4 < 9; omega) S8x256x1x56x56 _ rfl rfl 4 rfl
      (ix5 b c 0 h w) (stack_off b c 4 h w) rfl).trans (slab4 x0 b c h w)
  | ⟨5, _⟩ =>
    exact (concatenate_apply_piece (2 : Fin S8x256x9x56x56.rank) _ _ (ix5 b c (5 : Fin 9) h w) 5 (by show 5 < 9; omega) S8x256x1x56x56 _ rfl rfl 5 rfl
      (ix5 b c 0 h w) (stack_off b c 5 h w) rfl).trans (slab5 x0 b c h w)
  | ⟨6, _⟩ =>
    exact (concatenate_apply_piece (2 : Fin S8x256x9x56x56.rank) _ _ (ix5 b c (6 : Fin 9) h w) 6 (by show 6 < 9; omega) S8x256x1x56x56 _ rfl rfl 6 rfl
      (ix5 b c 0 h w) (stack_off b c 6 h w) rfl).trans (slab6 x0 b c h w)
  | ⟨7, _⟩ =>
    exact (concatenate_apply_piece (2 : Fin S8x256x9x56x56.rank) _ _ (ix5 b c (7 : Fin 9) h w) 7 (by show 7 < 9; omega) S8x256x1x56x56 _ rfl rfl 7 rfl
      (ix5 b c 0 h w) (stack_off b c 7 h w) rfl).trans (slab7 x0 b c h w)
  | ⟨8, _⟩ =>
    exact (concatenate_apply_piece (2 : Fin S8x256x9x56x56.rank) _ _ (ix5 b c (8 : Fin 9) h w) 8 (by show 8 < 9; omega) S8x256x1x56x56 _ rfl rfl 8 rfl
      (ix5 b c 0 h w) (stack_off b c 8 h w) rfl).trans (slab8 x0 b c h w)
  | ⟨n + 9, hn⟩ => exact absurd hn (by omega)

/-! ## The patch tensor `[8, 3136, 2304]` -/

/-- The pixel of row `l` of the merged axis. -/
def rowOf (l : Fin 3136) : Fin 56 := ⟨l.val / 56, by omega⟩
def colOf (l : Fin 3136) : Fin 56 := ⟨l.val % 56, by omega⟩

theorem patches_apply (b : Fin 8) (l : Fin 3136) (d : Fin 2304) :
    val_main_v21 (F := Ideal) x0 (ix3 b l d) = patchFlat x0 b (rowOf l) (colOf l) d := by
  rw [val_main_v21_apply]
  unfold val_main_v20
  refine (shapeCast_apply _ shapeCasts_S8x256x9x56x56_S8x2304x3136 (idx_main_v21 (ix3 b l d))
    (ix5 b ⟨d.val / 9, by omega⟩ ⟨d.val % 9, by omega⟩ (rowOf l) (colOf l)) ?_).trans ?_
  · rw [Shape.rowMajor_val_five, Shape.rowMajor_val_three]
    show (((b.val * 256 + d.val / 9) * 9 + d.val % 9) * 56 + l.val / 56) * 56 + l.val % 56 = (b.val * 2304 + d.val) * 3136 + l.val
    omega
  · rw [stack_apply]
    rfl

/-! ## The three layers -/

theorem hidden_apply (b : Fin 8) (l : Fin 3136) (c : Fin 256) :
    val_main_v26 (F := Ideal) x0 x1 x2 (ix3 b l c) = hidden x0 x1 x2 b (rowOf l) (colOf l) c := by
  rw [val_main_v26_apply, val_main_v25_apply, val_main_v22_apply, val_main_v24_apply, val_main_v23_apply,
    val_main_call1_v0_apply, val_main_call1_cst_apply]
  show max ((∑ k : Fin 2304, _) + _) (Ideal.ofBits .f32 0x00000000#32) = _
  rw [Ideal.ofBits_zero_f32]
  unfold GatedPatch.hidden
  congr 2
  · refine Finset.sum_congr rfl fun k _ => ?_
    have el : lidx_main_v22 (ix3 b l c) k = ix3 b l k := funext fun a => Fin.ext (by
      match a with
      | ⟨0, _⟩ => rfl
      | ⟨1, _⟩ => rfl
      | ⟨2, _⟩ => rfl)
    have er : ridx_main_v22 (ix3 b l c) k = ix2 k c := funext fun a => Fin.ext (by
      match a with
      | ⟨0, _⟩ => rfl
      | ⟨1, _⟩ => rfl)
    rw [el, er, patches_apply]
  · exact congrArg x2 (funext fun a => Fin.ext (by
      match a with
      | ⟨0, _⟩ => rfl))

theorem gate_apply (b : Fin 8) (l : Fin 3136) (d : Fin 2304) :
    val_main_v36 (F := Ideal) x0 x1 x2 x3 x4 (ix3 b l d) = gate x0 x1 x2 x3 x4 b (rowOf l) (colOf l) d := by
  rw [val_main_v36_apply, val_main_v35_apply, val_main_cst_0_apply, val_main_v34_apply, val_main_v33_apply, val_main_cst_apply,
    val_main_v32_apply, val_main_v31_apply, val_main_v30_apply, val_main_v27_apply, val_main_v29_apply, val_main_v28_apply]
  show Ideal.div (Ideal.ofBits .f32 0x3F800000#32) (Ideal.ofBits .f32 0x3F800000#32 + Ideal.exp (-((∑ k : Fin 256, _) + _))) = _
  rw [Ideal.ofBits_one_f32]
  unfold gate
  show _ = Ideal.div 1 (1 + Ideal.exp (-_))
  congr 5
  · refine Finset.sum_congr rfl fun k _ => ?_
    have el : lidx_main_v27 (ix3 b l d) k = ix3 b l k := funext fun a => Fin.ext (by
      match a with
      | ⟨0, _⟩ => rfl
      | ⟨1, _⟩ => rfl
      | ⟨2, _⟩ => rfl)
    have er : ridx_main_v27 (ix3 b l d) k = ix2 k d := funext fun a => Fin.ext (by
      match a with
      | ⟨0, _⟩ => rfl
      | ⟨1, _⟩ => rfl)
    rw [el, er, hidden_apply]
  · exact congrArg x4 (funext fun a => Fin.ext (by
      match a with
      | ⟨0, _⟩ => rfl))

theorem out_apply (b : Fin 8) (l : Fin 3136) (c' : Fin 256) :
    val_main_v41 (F := Ideal) x0 x1 x2 x3 x4 x5 x6 (ix3 b l c') = outAt x0 x1 x2 x3 x4 x5 x6 b (rowOf l) (colOf l) c' := by
  rw [val_main_v41_apply, val_main_v38_apply, val_main_v40_apply, val_main_v39_apply]
  show (∑ k : Fin 2304, _) + _ = _
  unfold outAt
  congr 1
  · refine Finset.sum_congr rfl fun k _ => ?_
    have el : lidx_main_v38 (ix3 b l c') k = ix3 b l k := funext fun a => Fin.ext (by
      match a with
      | ⟨0, _⟩ => rfl
      | ⟨1, _⟩ => rfl
      | ⟨2, _⟩ => rfl)
    have er : ridx_main_v38 (ix3 b l c') k = ix2 k c' := funext fun a => Fin.ext (by
      match a with
      | ⟨0, _⟩ => rfl
      | ⟨1, _⟩ => rfl)
    rw [el, er, val_main_v37_apply, patches_apply, gate_apply]
    rfl
  · exact congrArg x6 (funext fun a => Fin.ext (by
      match a with
      | ⟨0, _⟩ => rfl))

/-- The reference's result is the specified array. -/
theorem reference_eq :
    val_main_v41 (F := Ideal) x0 x1 x2 x3 x4 x5 x6 = result x0 x1 x2 x3 x4 x5 x6 := by
  funext i
  obtain ⟨b, l, c', rfl⟩ : ∃ (b : Fin 8) (l : Fin 3136) (c' : Fin 256), i = ix3 b l c' := ⟨i 0, i 1, i 2, eq_ix3 i⟩
  rw [out_apply]
  rfl

end Cert.ReferenceIdeal.RefRead

end
-- ==== Proof.lean ====
/-
  A 3 × 3 unfold of an image `[8, 256, 56, 56]` followed by three dense layers on each pixel's 2304-entry patch,
  the last one gated: `out = ((patch ⊙ logistic (max (patch · W1 + b1) 0 · W2 + b2)) · W3) + b3`.

  The reference forms the patch tensor `[8, 3136, 2304]` and contracts over its flat coordinate `d = c·9 + o`. The kernel
  never forms it: for each image and each tile of fourteen rows it adds, offset by offset, the product of a shifted
  slice of the zero-padded image with the 256 rows `c·9 + o` of the weight, and it applies the gate in the column
  order `o·256 + c`, to which the second weight and bias were permuted. Over the extended reals both are the same
  finite sums in another order (Proof/Spec.lean `sum_split_offsets`); the logistic the kernel applies is by definition
  `1 / (1 + exp (−y))`, which the reference spells out; changes of float format are the identity. No finiteness of the
  inputs is used, and the ideal pass rewrote nothing, so `preserves` has no conjunct.

  The kernel's result array as the specified function of the arguments is Proof/KernelValue.lean (over the generated
  frame run); the reference's is Proof/RefRead.lean (over the generated reference run, read one operation at a time).
-/
import proofs.«163215_j12000138625349_1_alg».proof.Defs
import proofs.«163215_j12000138625349_1_alg».proof.Proof.Gen.Kernel
import proofs.«163215_j12000138625349_1_alg».proof.Proof.Gen.Kernel.Skeleton
import proofs.«163215_j12000138625349_1_alg».proof.Proof.Gen.Kernel.Launch
import proofs.«163215_j12000138625349_1_alg».proof.Proof.Gen.Kernel.Points
import proofs.«163215_j12000138625349_1_alg».proof.Proof.Gen.Kernel.Frame
import proofs.«163215_j12000138625349_1_alg».proof.Proof.Gen.KernelIdeal
import proofs.«163215_j12000138625349_1_alg».proof.Proof.Gen.KernelIdeal.Skeleton
import proofs.«163215_j12000138625349_1_alg».proof.Proof.Gen.KernelIdeal.Launch
import proofs.«163215_j12000138625349_1_alg».proof.Proof.Gen.KernelIdeal.Points
import proofs.«163215_j12000138625349_1_alg».proof.Proof.Gen.KernelIdeal.Frame
import proofs.«163215_j12000138625349_1_alg».proof.Proof.Gen.ReferenceIdeal
import proofs.«163215_j12000138625349_1_alg».proof.Proof.Gen.ReferenceIdeal.Run
import proofs.«163215_j12000138625349_1_alg».proof.Proof.Gen.ReferenceIdeal.Read
import proofs.«163215_j12000138625349_1_alg».proof.Proof.Gen.Pre_finite_inputs
import proofs.«163215_j12000138625349_1_alg».proof.Proof.KernelValue
import proofs.«163215_j12000138625349_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the specified array of the arguments they agree on. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefRead.reference_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
